-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x131072 : Shape := ⟨2, ![64, 131072]⟩
abbrev S64 : Shape := ⟨1, ![64]⟩
abbrev S_ : Shape := ⟨0, ![]⟩

class Facts : Prop where
  bcast_S_S64x131072 : S_.BroadcastsInDim S64x131072 (![] : Fin 0 → Fin S64x131072.rank)
  reducesTo_S64x131072_S_d0_1 : S64x131072.ReducesTo [0, 1] S_
  h_S_ : 0 < S_.numel

variable [Facts]

def fn_part1 {F : FTy → Type} [FloatOps F] (main_v13 : IVec S_ 1) (main_v16 : IVec S64x131072 1) : IVec S_ 1 :=
  let main_c_5 : IVec S_ 1 := constantI S_ 1 1#1
  let main_v17 : IVec S_ 1 := (fun x v => Host.reduce IntOp.andi x v reducesTo_S64x131072_S_d0_1 h_S_) main_v16 main_c_5
  let main_v18 : IVec S_ 1 := andi main_v13 main_v17
  main_v18

def fn {F : FTy → Type} [FloatOps F] (main_arg0 : FVec F S64x131072 .f32) (main_arg1 : FVec F S64x131072 .f32) (main_arg2 : FVec F S64x131072 .f32) (main_arg3 : FVec F S64x131072 .f32) (main_arg4 : IVec S64 32) : IVec S_ 1 :=
  let main_v0 : FVec F S64x131072 .f32 := Host.absf main_arg0
  let main_cst : FVec F S_ .f32 := constant S_ .f32 0x7F800000#32
  let main_v1 : FVec F S64x131072 .f32 := broadcastInDim S64x131072 ![] bcast_S_S64x131072 main_cst
  let main_v2 : IVec S64x131072 1 := cmpf .olt main_v0 main_v1
  let main_c : IVec S_ 1 := constantI S_ 1 1#1
  let main_v3 : IVec S_ 1 := (fun x v => Host.reduce IntOp.andi x v reducesTo_S64x131072_S_d0_1 h_S_) main_v2 main_c
  let main_v4 : FVec F S64x131072 .f32 := Host.absf main_arg1
  let main_cst_0 : FVec F S_ .f32 := constant S_ .f32 0x7F800000#32
  let main_v5 : FVec F S64x131072 .f32 := broadcastInDim S64x131072 ![] bcast_S_S64x131072 main_cst_0
  let main_v6 : IVec S64x131072 1 := cmpf .olt main_v4 main_v5
  let main_c_1 : IVec S_ 1 := constantI S_ 1 1#1
  let main_v7 : IVec S_ 1 := (fun x v => Host.reduce IntOp.andi x v reducesTo_S64x131072_S_d0_1 h_S_) main_v6 main_c_1
  let main_v8 : IVec S_ 1 := andi main_v3 main_v7
  let main_v9 : FVec F S64x131072 .f32 := Host.absf main_arg2
  let main_cst_2 : FVec F S_ .f32 := constant S_ .f32 0x7F800000#32
  let main_v10 : FVec F S64x131072 .f32 := broadcastInDim S64x131072 ![] bcast_S_S64x131072 main_cst_2
  let main_v11 : IVec S64x131072 1 := cmpf .olt main_v9 main_v10
  let main_c_3 : IVec S_ 1 := constantI S_ 1 1#1
  let main_v12 : IVec S_ 1 := (fun x v => Host.reduce IntOp.andi x v reducesTo_S64x131072_S_d0_1 h_S_) main_v11 main_c_3
  let main_v13 : IVec S_ 1 := andi main_v8 main_v12
  let main_v14 : FVec F S64x131072 .f32 := Host.absf main_arg3
  let main_cst_4 : FVec F S_ .f32 := constant S_ .f32 0x7F800000#32
  let main_v15 : FVec F S64x131072 .f32 := broadcastInDim S64x131072 ![] bcast_S_S64x131072 main_cst_4
  let main_v16 : IVec S64x131072 1 := cmpf .olt main_v14 main_v15
  fn_part1 (F := F) main_v13 main_v16
-- ==== Kernel.lean ====
abbrev S64x131072 : Shape := ⟨2, ![64, 131072]⟩
abbrev S64 : Shape := ⟨1, ![64]⟩
abbrev S64x1 : Shape := ⟨2, ![64, 1]⟩
abbrev S64x7 : Shape := ⟨2, ![64, 7]⟩
abbrev S8x1 : Shape := ⟨2, ![8, 1]⟩
abbrev S8x32768 : Shape := ⟨2, ![8, 32768]⟩
abbrev S8x7 : Shape := ⟨2, ![8, 7]⟩
abbrev S8 : Shape := ⟨1, ![8]⟩
abbrev S_ : Shape := ⟨0, ![]⟩

abbrev nBuf : Space → Nat
  | .hbm => 109
  | .vmem => 12
  | .smem => 0
  | _ => 0

abbrev bufTy : (tb : Table) → Fin (tcTables nBuf tb) → BufTy
  | .hbm, ⟨0, _⟩ => ⟨S64x131072, .f32⟩
  | .hbm, ⟨1, _⟩ => ⟨S64x131072, .f32⟩
  | .hbm, ⟨2, _⟩ => ⟨S64x131072, .f32⟩
  | .hbm, ⟨3, _⟩ => ⟨S64x131072, .f32⟩
  | .hbm, ⟨4, _⟩ => ⟨S64, .i32⟩
  | .hbm, ⟨5, _⟩ => ⟨S64x1, .i32⟩
  | .hbm, ⟨6, _⟩ => ⟨S64x7, .f32⟩
  | .hbm, ⟨7, _⟩ => ⟨S64x1, .f32⟩
  | .hbm, ⟨8, _⟩ => ⟨S64, .f32⟩
  | .hbm, ⟨9, _⟩ => ⟨S64x1, .f32⟩
  | .hbm, ⟨10, _⟩ => ⟨S64, .f32⟩
  | .hbm, ⟨11, _⟩ => ⟨S64x1, .f32⟩
  | .hbm, ⟨12, _⟩ => ⟨S64, .f32⟩
  | .hbm, ⟨13, _⟩ => ⟨S64x1, .f32⟩
  | .hbm, ⟨14, _⟩ => ⟨S64, .f32⟩
  | .hbm, ⟨15, _⟩ => ⟨S64x1, .f32⟩
  | .hbm, ⟨16, _⟩ => ⟨S64, .f32⟩
  | .hbm, ⟨17, _⟩ => ⟨S64x1, .f32⟩
  | .hbm, ⟨18, _⟩ => ⟨S64, .f32⟩
  | .hbm, ⟨19, _⟩ => ⟨S64x1, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S64, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S_, .f32⟩
  | .hbm, ⟨94, _⟩ => ⟨S64, .f32⟩
  | .hbm, ⟨95, _⟩ => ⟨S64, .f32⟩
  | .hbm, ⟨96, _⟩ => ⟨S_, .f32⟩
  | .hbm, ⟨97, _⟩ => ⟨S64, .f32⟩
  | .hbm, ⟨98, _⟩ => ⟨S64, .f32⟩
  | .hbm, ⟨99, _⟩ => ⟨S64, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S64, .f32⟩
  | .hbm, ⟨104, _⟩ => ⟨S64, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .local _ .vmem, ⟨0, _⟩ => ⟨S8x1, .i32⟩
  | .local _ .vmem, ⟨1, _⟩ => ⟨S8x1, .i32⟩
  | .local _ .vmem, ⟨2, _⟩ => ⟨S8x32768, .f32⟩
  | .local _ .vmem, ⟨3, _⟩ => ⟨S8x32768, .f32⟩
  | .local _ .vmem, ⟨4, _⟩ => ⟨S8x32768, .f32⟩
  | .local _ .vmem, ⟨5, _⟩ => ⟨S8x32768, .f32⟩
  | .local _ .vmem, ⟨6, _⟩ => ⟨S8x32768, .f32⟩
  | .local _ .vmem, ⟨7, _⟩ => ⟨S8x32768, .f32⟩
  | .local _ .vmem, ⟨8, _⟩ => ⟨S8x32768, .f32⟩
  | .local _ .vmem, ⟨9, _⟩ => ⟨S8x32768, .f32⟩
  | .local _ .vmem, ⟨10, _⟩ => ⟨S8x7, .f32⟩
  | .local _ .vmem, ⟨11, _⟩ => ⟨S8x7, .f32⟩
  | _, _ => ⟨S64x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_11 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_12 : Ref sig .tc := ⟨.hbm, 87, rfl⟩
abbrev main_v69 : Ref sig .tc := ⟨.hbm, 88, rfl⟩
abbrev main_v70 : Ref sig .tc := ⟨.hbm, 89, rfl⟩
abbrev main_cst_13 : Ref sig .tc := ⟨.hbm, 90, rfl⟩
abbrev main_v71 : Ref sig .tc := ⟨.hbm, 91, rfl⟩
abbrev main_v72 : Ref sig .tc := ⟨.hbm, 92, rfl⟩
abbrev main_cst_14 : Ref sig .tc := ⟨.hbm, 93, rfl⟩
abbrev main_v73 : Ref sig .tc := ⟨.hbm, 94, rfl⟩
abbrev main_v74 : Ref sig .tc := ⟨.hbm, 95, rfl⟩
abbrev main_cst_15 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_16 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_17 : Ref sig .tc := ⟨.hbm, 105, rfl⟩
abbrev main_v82 : Ref sig .tc := ⟨.hbm, 106, rfl⟩
abbrev main_cst_18 : Ref sig .tc := ⟨.hbm, 107, rfl⟩
abbrev main_v83 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x7 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S64_S64x1 : S64.ShapeCasts S64x1
  inb_S8x7_S8x7_0_0 : ∀ a, (![0, 0] : Fin 2 → Nat) a + S8x7.size a ≤ S8x7.size a
  h_S8x7 : 0 < S8x7.numel
  iota_S8x32768_d1_w32 : S8x32768.Iotas .tc 32 [1]
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x32768 : S8x1.Broadcasts S8x32768
  natLt_1_32 : 1 < 32
  inb_S8x32768_S8x32768_0_0 : ∀ a, (![0, 0] : Fin 2 → Nat) a + S8x32768.size a ≤ S8x32768.size a
  h_S8x32768 : 0 < S8x32768.numel
  reduces_S8x32768_S8 : S8x32768.Reduces [1] S8
  shapeCasts_S8_S8x1 : S8.ShapeCasts S8x1
  concatenates_S8x1_S8x1_S8x1_S8x1_S8x1_S8x1_S8x1_S8x7_d1 : Shape.Concatenates [S8x1, S8x1, S8x1, S8x1, S8x1, S8x1, S8x1] S8x7 1
  shapeCasts_S8x7_S8x7 : S8x7.ShapeCasts S8x7
  slices_S64x7_S64x1_0_0 : S64x7.Slices ![0, 0] S64x1
  shapeCasts_S64x1_S64 : S64x1.ShapeCasts S64
  slices_S64x7_S64x1_0_1 : S64x7.Slices ![0, 1] S64x1
  slices_S64x7_S64x1_0_2 : S64x7.Slices ![0, 2] S64x1
  slices_S64x7_S64x1_0_3 : S64x7.Slices ![0, 3] S64x1
  slices_S64x7_S64x1_0_4 : S64x7.Slices ![0, 4] S64x1
  slices_S64x7_S64x1_0_5 : S64x7.Slices ![0, 5] S64x1
  slices_S64x7_S64x1_0_6 : S64x7.Slices ![0, 6] S64x1
  bcast_S_S64 : S_.BroadcastsInDim S64 (![] : Fin 0 → Fin S64.rank)
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1.size a ≤ S64x1.size a
  hwx0_0 : ∀ i : grid0.Coords, EltTy.bits .i32 = 32 ∨ (Rect.block (s := S64x1) S8x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32768.size a ≤ S64x131072.size a
  hwx0_1 : ∀ i : grid0.Coords, EltTy.bits .f32 = 32 ∨ (Rect.block (s := S64x131072) S8x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32768.size a ≤ S64x131072.size a
  hwx0_2 : ∀ i : grid0.Coords, EltTy.bits .f32 = 32 ∨ (Rect.block (s := S64x131072) S8x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32768.size a ≤ S64x131072.size a
  hwx0_3 : ∀ i : grid0.Coords, EltTy.bits .f32 = 32 ∨ (Rect.block (s := S64x131072) S8x32768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x32768.size a ≤ S64x131072.size a
  hwx0_4 : ∀ i : grid0.Coords, EltTy.bits .f32 = 32 ∨ (Rect.block (s := S64x131072) S8x32768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x7.size a ≤ S64x7.size a
  hwx0_5 : ∀ i : grid0.Coords, EltTy.bits .f32 = 32 ∨ (Rect.block (s := S64x7) S8x7.size (cc0_transform_5 i) (hinb0_5 i)).WholeWords (EltTy.packing .f32)

variable [Facts₀]

abbrev win0_0 : Pipeline.Window sig grid0 :=
  Pipeline.Window.ofSpec (Memref.whole main_v0) S8x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8x32768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S8x32768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8x7.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x131072 : Shape := ⟨2, ![64, 131072]⟩
abbrev S64 : Shape := ⟨1, ![64]⟩
abbrev S131072 : Shape := ⟨1, ![131072]⟩
abbrev S1x131072 : Shape := ⟨2, ![1, 131072]⟩
abbrev S64x1 : Shape := ⟨2, ![64, 1]⟩
abbrev S_ : Shape := ⟨0, ![]⟩

abbrev nBuf : Space → Nat
  | .hbm => 133
  | .vmem => 0
  | .smem => 0
  | _ => 0

abbrev hbmTy0_0 (i : Nat) : BufTy := match i % 128 with
  | 0 => ⟨S64x131072, .f32⟩
  | 1 => ⟨S64x131072, .f32⟩
  | 2 => ⟨S64x131072, .f32⟩
  | 3 => ⟨S64x131072, .f32⟩
  | 4 => ⟨S64, .i32⟩
  | 5 => ⟨S131072, .i32⟩
  | 6 => ⟨S1x131072, .i32⟩
  | 7 => ⟨S64x1, .i32⟩
  | 8 => ⟨S64x131072, .i32⟩
  | 9 => ⟨S64x131072, .i32⟩
  | 10 => ⟨S64x131072, .i1⟩
  | 11 => ⟨S64x131072, .f32⟩
  | 12 => ⟨S64x131072, .f32⟩
  | 13 => ⟨S64x131072, .f32⟩
  | 14 => ⟨S64x131072, .f32⟩
  | 15 => ⟨S_, .f32⟩
  | 16 => ⟨S64, .f32⟩
  | 17 => ⟨S64x131072, .f32⟩
  | 18 => ⟨S_, .f32⟩
  | 19 => ⟨S64, .f32⟩
  | 20 => ⟨S64, .f32⟩
  | 21 => ⟨S64x1, .f32⟩
  | 22 => ⟨S64x131072, .f32⟩
  | 23 => ⟨S64x131072, .f32⟩
  | 24 => ⟨S64x131072, .f32⟩
  | 25 => ⟨S_, .f32⟩
  | 26 => ⟨S64, .f32⟩
  | 27 => ⟨S64, .f32⟩
  | 28 => ⟨S64x131072, .f32⟩
  | 29 => ⟨S64x131072, .f32⟩
  | 30 => ⟨S_, .f32⟩
  | 31 => ⟨S64, .f32⟩
  | 32 => ⟨S64, .f32⟩
  | 33 => ⟨S_, .f32⟩
  | 34 => ⟨S64, .f32⟩
  | 35 => ⟨S64, .f32⟩
  | 36 => ⟨S64, .f32⟩
  | 37 => ⟨S_, .f32⟩
  | 38 => ⟨S64, .f32⟩
  | 39 => ⟨S64, .f32⟩
  | 40 => ⟨S64, .f32⟩
  | 41 => ⟨S_, .f32⟩
  | 42 => ⟨S64, .f32⟩
  | 43 => ⟨S64, .f32⟩
  | 44 => ⟨S_, .f32⟩
  | 45 => ⟨S64, .f32⟩
  | 46 => ⟨S64, .f32⟩
  | 47 => ⟨S64x131072, .f32⟩
  | 48 => ⟨S64x131072, .f32⟩
  | 49 => ⟨S64x131072, .f32⟩
  | 50 => ⟨S_, .f32⟩
  | 51 => ⟨S64, .f32⟩
  | 52 => ⟨S64x131072, .f32⟩
  | 53 => ⟨S_, .f32⟩
  | 54 => ⟨S64, .f32⟩
  | 55 => ⟨S64, .f32⟩
  | 56 => ⟨S64x1, .f32⟩
  | 57 => ⟨S64x131072, .f32⟩
  | 58 => ⟨S64x131072, .f32⟩
  | 59 => ⟨S64x131072, .f32⟩
  | 60 => ⟨S_, .f32⟩
  | 61 => ⟨S64, .f32⟩
  | 62 => ⟨S64, .f32⟩
  | 63 => ⟨S64x131072, .f32⟩
  | 64 => ⟨S64x131072, .f32⟩
  | 65 => ⟨S_, .f32⟩
  | 66 => ⟨S64, .f32⟩
  | 67 => ⟨S64, .f32⟩
  | 68 => ⟨S_, .f32⟩
  | 69 => ⟨S64, .f32⟩
  | 70 => ⟨S64, .f32⟩
  | 71 => ⟨S64, .f32⟩
  | 72 => ⟨S_, .f32⟩
  | 73 => ⟨S64, .f32⟩
  | 74 => ⟨S64, .f32⟩
  | 75 => ⟨S64, .f32⟩
  | 76 => ⟨S_, .f32⟩
  | 77 => ⟨S64, .f32⟩
  | 78 => ⟨S64, .f32⟩
  | 79 => ⟨S_, .f32⟩
  | 80 => ⟨S64, .f32⟩
  | 81 => ⟨S64, .f32⟩
  | 82 => ⟨S64x131072, .f32⟩
  | 83 => ⟨S64x131072, .f32⟩
  | 84 => ⟨S64x131072, .f32⟩
  | 85 => ⟨S_, .f32⟩
  | 86 => ⟨S64, .f32⟩
  | 87 => ⟨S64x131072, .f32⟩
  | 88 => ⟨S_, .f32⟩
  | 89 => ⟨S64, .f32⟩
  | 90 => ⟨S64, .f32⟩
  | 91 => ⟨S64x1, .f32⟩
  | 92 => ⟨S64x131072, .f32⟩
  | 93 => ⟨S64x131072, .f32⟩
  | 94 => ⟨S64x131072, .f32⟩
  | 95 => ⟨S_, .f32⟩
  | 96 => ⟨S64, .f32⟩
  | 97 => ⟨S64, .f32⟩
  | 98 => ⟨S64x131072, .f32⟩
  | 99 => ⟨S64x131072, .f32⟩
  | 100 => ⟨S_, .f32⟩
  | 101 => ⟨S64, .f32⟩
  | 102 => ⟨S64, .f32⟩
  | 103 => ⟨S_, .f32⟩
  | 104 => ⟨S64, .f32⟩
  | 105 => ⟨S64, .f32⟩
  | 106 => ⟨S64, .f32⟩
  | 107 => ⟨S_, .f32⟩
  | 108 => ⟨S64, .f32⟩
  | 109 => ⟨S64, .f32⟩
  | 110 => ⟨S64, .f32⟩
  | 111 => ⟨S_, .f32⟩
  | 112 => ⟨S64, .f32⟩
  | 113 => ⟨S64, .f32⟩
  | 114 => ⟨S_, .f32⟩
  | 115 => ⟨S64, .f32⟩
  | 116 => ⟨S64, .f32⟩
  | 117 => ⟨S_, .f32⟩
  | 118 => ⟨S64, .f32⟩
  | 119 => ⟨S64, .f32⟩
  | 120 => ⟨S_, .f32⟩
  | 121 => ⟨S64, .f32⟩
  | 122 => ⟨S64, .f32⟩
  | 123 => ⟨S64, .f32⟩
  | 124 => ⟨S_, .f32⟩
  | 125 => ⟨S64, .f32⟩
  | 126 => ⟨S64, .f32⟩
  | 127 => ⟨S64, .f32⟩
  | _ => ⟨S64x131072, .f32⟩

abbrev hbmTy0_1 (i : Nat) : BufTy := match i % 128 with
  | 0 => ⟨S64, .f32⟩
  | 1 => ⟨S_, .f32⟩
  | 2 => ⟨S_, .f32⟩
  | 3 => ⟨S_, .f32⟩
  | 4 => ⟨S_, .f32⟩
  | _ => ⟨S64x131072, .f32⟩

abbrev hbmTy (i : Nat) : BufTy := match i / 128 with
  | 0 => hbmTy0_0 i
  | 1 => hbmTy0_1 i
  | _ => ⟨S64x131072, .f32⟩

abbrev bufTy : (tb : Table) → Fin (tcTables nBuf tb) → BufTy
  | .hbm, ⟨i, _⟩ => hbmTy i
  | _, _ => ⟨S64x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_v58 : Ref sig .tc := ⟨.hbm, 78, rfl⟩
abbrev main_cst_14 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_15 : Ref sig .tc := ⟨.hbm, 85, rfl⟩
abbrev main_v64 : Ref sig .tc := ⟨.hbm, 86, rfl⟩
abbrev main_v65 : Ref sig .tc := ⟨.hbm, 87, rfl⟩
abbrev main_cst_16 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_17 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_18 : Ref sig .tc := ⟨.hbm, 100, rfl⟩
abbrev main_v76 : Ref sig .tc := ⟨.hbm, 101, rfl⟩
abbrev main_v77 : Ref sig .tc := ⟨.hbm, 102, rfl⟩
abbrev main_cst_19 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_20 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_21 : Ref sig .tc := ⟨.hbm, 111, rfl⟩
abbrev main_v84 : Ref sig .tc := ⟨.hbm, 112, rfl⟩
abbrev main_v85 : Ref sig .tc := ⟨.hbm, 113, rfl⟩
abbrev main_cst_22 : Ref sig .tc := ⟨.hbm, 114, rfl⟩
abbrev main_v86 : Ref sig .tc := ⟨.hbm, 115, rfl⟩
abbrev main_v87 : Ref sig .tc := ⟨.hbm, 116, rfl⟩
abbrev main_cst_23 : Ref sig .tc := ⟨.hbm, 117, rfl⟩
abbrev main_v88 : Ref sig .tc := ⟨.hbm, 118, rfl⟩
abbrev main_v89 : Ref sig .tc := ⟨.hbm, 119, rfl⟩
abbrev main_cst_24 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_25 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_26 : Ref sig .tc := ⟨.hbm, 129, rfl⟩
abbrev main_v97 : Ref sig .tc := ⟨.hbm, 130, rfl⟩
abbrev main_cst_27 : Ref sig .tc := ⟨.hbm, 131, rfl⟩
abbrev main_v98 : Ref sig .tc := ⟨.hbm, 132, rfl⟩

abbrev nD : Nat := 1
abbrev τ : Topo := Topo.v7x

variable {F : FTy → Type} [FloatOps F]

class Facts₀ : Prop where
  bcast_S131072_S1x131072_1 : S131072.BroadcastsInDim S1x131072 (![1] : Fin 1 → Fin S1x131072.rank)
  bcast_S64_S64x1_0 : S64.BroadcastsInDim S64x1 (![0] : Fin 1 → Fin S64x1.rank)
  bcast_S1x131072_S64x131072_0_1 : S1x131072.BroadcastsInDim S64x131072 (![0, 1] : Fin 2 → Fin S64x131072.rank)
  bcast_S64x1_S64x131072_0_1 : S64x1.BroadcastsInDim S64x131072 (![0, 1] : Fin 2 → Fin S64x131072.rank)
  reducesTo_S64x131072_S64_d1 : S64x131072.ReducesTo [1] S64
  h_S_ : 0 < S_.numel
  bcast_S_S64 : S_.BroadcastsInDim S64 (![] : Fin 0 → Fin S64.rank)
  reducesTo_S64_S_d0 : S64.ReducesTo [0] S_

variable [Facts₀]

class Facts : Prop extends Facts₀ where

variable [Facts]
-- ==== Proof.KB.Kit.lean ====
/-
  The launch side of the frame of `Kernel`: @main is one reshape of the lengths, the region, then 102 host
  operations (cut after the 58th). The region finds its arrays at the contents `V` after the reshape; the later
  operations read the region's result and write only their own result buffers, so the five argument arrays end as
  launched. Stated for any float instance `F`.
-/
import proofs.«114443_j74741020885129_1_alg».proof.Proof.Gen.Kernel.Launch
import proofs.«114443_j74741020885129_1_alg».proof.Proof.Gen.Kernel.Skeleton
import proofs.«114443_j74741020885129_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 65536

noncomputable section

namespace Cert.Kernel.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered: after the reshape of the lengths. -/
abbrev V0 (c : Dev nD) : Valuation τ sig (Elt F) := StableHlo.after (List.flatten [main_part0_ops0]) (fun b => m (c, b))
/-- The same read at a TensorCore reference. -/
abbrev V (c : Dev nD) (b : Ref sig .tc) : Buf (Elt F) ((c : Thread nD τ).loc b) := V0 m c (Proc.devRef .tc b)

/-- The host operations after the region, in two stretches (58 and 44 operations). -/
abbrev tailOps : List (List (HloOp τ sig (Elt F))) := [main_part0_ops1, main_part1_ops0]

theorem ops0_fresh : (main_part0_ops0 : List (HloOp τ sig (Elt F))).Forall fun op => op.fresh = ∅ := by
  simp only [List.Forall]; repeat' constructor
theorem ops1_fresh : (main_part0_ops1 : List (HloOp τ sig (Elt F))).Forall fun op => op.fresh = ∅ := by
  simp only [List.Forall]; repeat' constructor
theorem ops2_fresh : (main_part1_ops0 : List (HloOp τ sig (Elt F))).Forall fun op => op.fresh = ∅ := by
  simp only [List.Forall]; repeat' constructor

set_option maxHeartbeats 8000000 in
/-- @main reduces to the region continued by the later operations, holding the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq main_part0_ops1, StableHlo.seq main_part1_ops0]) :=
  Pipeline.hmain_around cfgs 0 defs₀ 𝒱₀ m main [main_part0_ops0] [main_part0_ops1, main_part1_ops0] (by simp only [List.Forall]; exact main_part0_ops0_sub)
    (by simp only [List.Forall]; exact ops0_fresh) main_chain_windows

/-- The later operations touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl
  · exact Pipeline.sub_ucRefs op ((List.forall_iff_forall_mem.mp main_part0_ops1_sub) op hop)
  · exact Pipeline.sub_ucRefs op ((List.forall_iff_forall_mem.mp main_part1_ops0_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl
  · exact (List.forall_iff_forall_mem.mp ops1_fresh) op hop
  · exact (List.forall_iff_forall_mem.mp ops2_fresh) op hop
set_option maxHeartbeats 8000000 in
/-- No operation of the first later stretch writes an array of the pipeline. -/
theorem keeps1 : ∀ op ∈ (main_part0_ops1 : List (HloOp τ sig (Elt F))), ∀ w, Proc.devRef .tc (Pipeline.arrRef spec0 w) ∉ op.writes := by
  intro op hop
  simp only [main_part0_ops1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
set_option maxHeartbeats 8000000 in
/-- Nor does one of the second. -/
theorem keeps2 : ∀ op ∈ (main_part1_ops0 : List (HloOp τ sig (Elt F))), ∀ w, Proc.devRef .tc (Pipeline.arrRef spec0 w) ∉ op.writes := by
  intro op hop
  simp only [main_part1_ops0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl
  · exact keeps1 op hop
  · exact keeps2 op hop

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes the lengths: they end as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [tailOps, main_part0_ops1, main_part1_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The four float arguments are arrays of input windows (2, 3, 4 and 1), which the run leaves at their entry
    contents; the lengths bypass the region and no later operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 2).trans (((dats 0 c).arrAt_in 2 rfl _).trans ((hA c 2).trans (V_main_arg0 m c))),
      ((h c).1 3).trans (((dats 0 c).arrAt_in 3 rfl _).trans ((hA c 3).trans (V_main_arg1 m c))),
      ((h c).1 4).trans (((dats 0 c).arrAt_in 4 rfl _).trans ((hA c 4).trans (V_main_arg2 m c))),
      ((h c).1 1).trans (((dats 0 c).arrAt_in 1 rfl _).trans ((hA c 1).trans (V_main_arg3 m c))),
      ((h c).2 main_arg4 (Pipeline.mem_restRefs_of main_arg4 (by decide) (by decide))).trans (W_main_arg4 m dats c)⟩) h

/-! ## The body's branch condition -/

/-- The body's one conditional: the second grid coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs -/

/-- One staging buffer of the output window, through which its contents are stated. -/
abbrev VO0_5 : View sig .tc .vmem S8x7 .f32 := (Memref.whole cc0_stg5_0 : Memref sig .tc .vmem S8x7 .f32).view
abbrev ms0_0 (t : Fin cfg0.N) : Memref sig .tc .vmem S8x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x32768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x32768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x32768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x32768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x7 .f32 := win0_5.stage (cfg0.slots t 5)
abbrev hs0_5 (t : Fin cfg0.N) : (ms0_5 t).IsWhole := hstage0_5 ((cfg0.slots t 5).cast nbuf0_5)

end Cert.Kernel.FrameH

end
-- ==== Proof.KB.RunA.lean ====
/-
  The body of `Kernel`'s kernel at a point whose second grid coordinate is zero: the output block's buffer,
  holding anything, is first set to zeros and then receives zeros plus the point's seven masked row sums.
  The stores the body leaves in the output buffer are found by running it.
-/
import proofs.«114443_j74741020885129_1_alg».proof.Proof.KB.Kit

set_option maxRecDepth 65536

noncomputable section

namespace Cert.Kernel.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores into the output buffer at a resetting point, with the proof that the body runs on whole staging
    memrefs holding the input blocks and gives them back unchanged. -/
noncomputable def kernelRun0_A (c : Dev nD) (i : grid0.Coords) (arg2 : Memref sig .tc .vmem S8x1 .i32) (harg2 : arg2.IsWhole) (arg3 : Memref sig .tc .vmem S8x32768 .f32) (harg3 : arg3.IsWhole) (arg4 : Memref sig .tc .vmem S8x32768 .f32) (harg4 : arg4.IsWhole) (arg5 : Memref sig .tc .vmem S8x32768 .f32) (harg5 : arg5.IsWhole) (arg6 : Memref sig .tc .vmem S8x32768 .f32) (harg6 : arg6.IsWhole) (arg7 : Memref sig .tc .vmem S8x7 .f32) (harg7 : arg7.IsWhole) (hc0 : cond0_0 i)
    (x0 : Vec F S8x1 .i32) (x1 : Vec F S8x32768 .f32) (x2 : Vec F S8x32768 .f32) (x3 : Vec F S8x32768 .f32) (x4 : Vec F S8x32768 .f32) :
    { L5 : List (View.Piece (Elt F) S8x7 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__sisdr_reduce_kernel i arg2 harg2 arg3 harg3 arg4 harg4 arg5 harg5 arg6 harg6 arg7 harg7) K } := by
  refine ⟨?_, fun E K => ?run⟩
  case run =>
    simp only [cc0__sisdr_reduce_kernel_eq_skeleton]; unfold cc0__sisdr_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.FrameH

end
-- ==== Proof.KB.RunB.lean ====
/-
  The body of `Kernel`'s kernel at a point whose second grid coordinate is not zero: the output block's buffer
  holds the running sums of the earlier points of its row block and receives them plus the point's seven masked
  row sums.
-/
import proofs.«114443_j74741020885129_1_alg».proof.Proof.KB.RunA

set_option maxRecDepth 65536

noncomputable section

namespace Cert.Kernel.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores into the output buffer at an accumulating point, the buffer entering at `xo5`. -/
noncomputable def kernelRun0_B (c : Dev nD) (i : grid0.Coords) (arg2 : Memref sig .tc .vmem S8x1 .i32) (harg2 : arg2.IsWhole) (arg3 : Memref sig .tc .vmem S8x32768 .f32) (harg3 : arg3.IsWhole) (arg4 : Memref sig .tc .vmem S8x32768 .f32) (harg4 : arg4.IsWhole) (arg5 : Memref sig .tc .vmem S8x32768 .f32) (harg5 : arg5.IsWhole) (arg6 : Memref sig .tc .vmem S8x32768 .f32) (harg6 : arg6.IsWhole) (arg7 : Memref sig .tc .vmem S8x7 .f32) (harg7 : arg7.IsWhole) (hc0 : ¬cond0_0 i)
    (x0 : Vec F S8x1 .i32) (x1 : Vec F S8x32768 .f32) (x2 : Vec F S8x32768 .f32) (x3 : Vec F S8x32768 .f32) (x4 : Vec F S8x32768 .f32) (xo5 : Vec F S8x7 .f32) :
    { L5 : List (View.Piece (Elt F) S8x7 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__sisdr_reduce_kernel i arg2 harg2 arg3 harg3 arg4 harg4 arg5 harg5 arg6 harg6 arg7 harg7) K } := by
  refine ⟨?_, fun E K => ?run⟩
  case run =>
    simp only [cc0__sisdr_reduce_kernel_eq_skeleton]; unfold cc0__sisdr_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.FrameH

end
-- ==== Proof.KB.Frame.lean ====
/-
  The frame of `Kernel`: what the output block's buffer holds after each grid point (zeros plus the point's
  row sums where the second coordinate is zero, the previous point's contents plus the point's row sums elsewhere),
  the pipeline's proof data over it, the body obligation at every point, the run of @main and the frame claim.
-/
import proofs.«114443_j74741020885129_1_alg».proof.Proof.KB.RunB

set_option maxRecDepth 65536

noncomputable section

namespace Cert.Kernel.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A resetting point's stores cover the output block. -/
theorem cover0_A_5 (c : Dev nD) (i : grid0.Coords) (arg2 : Memref sig .tc .vmem S8x1 .i32) (harg2 : arg2.IsWhole) (arg3 : Memref sig .tc .vmem S8x32768 .f32) (harg3 : arg3.IsWhole) (arg4 : Memref sig .tc .vmem S8x32768 .f32) (harg4 : arg4.IsWhole) (arg5 : Memref sig .tc .vmem S8x32768 .f32) (harg5 : arg5.IsWhole) (arg6 : Memref sig .tc .vmem S8x32768 .f32) (harg6 : arg6.IsWhole) (arg7 : Memref sig .tc .vmem S8x7 .f32) (harg7 : arg7.IsWhole) (hc0 : cond0_0 i)
    (x0 : Vec F S8x1 .i32) (x1 : Vec F S8x32768 .f32) (x2 : Vec F S8x32768 .f32) (x3 : Vec F S8x32768 .f32) (x4 : Vec F S8x32768 .f32) (y : S8x7.Idx) :
    ∃ pc ∈ (kernelRun0_A c i arg2 harg2 arg3 harg3 arg4 harg4 arg5 harg5 arg6 harg6 arg7 harg7 hc0 x0 x1 x2 x3 x4).1, y ∈ pc.1.set :=
  View.cover_of_tiledL (kernelRun0_A c i arg2 harg2 arg3 harg3 arg4 harg4 arg5 harg5 arg6 harg6 arg7 harg7 hc0 x0 x1 x2 x3 x4).1 S8x7.size (by sl_kernel_rfl) y

/-- What a resetting point leaves in the output block's buffer. -/
def out0_A_5 (c : Dev nD) (i : grid0.Coords) (arg2 : Memref sig .tc .vmem S8x1 .i32) (harg2 : arg2.IsWhole) (arg3 : Memref sig .tc .vmem S8x32768 .f32) (harg3 : arg3.IsWhole) (arg4 : Memref sig .tc .vmem S8x32768 .f32) (harg4 : arg4.IsWhole) (arg5 : Memref sig .tc .vmem S8x32768 .f32) (harg5 : arg5.IsWhole) (arg6 : Memref sig .tc .vmem S8x32768 .f32) (harg6 : arg6.IsWhole) (arg7 : Memref sig .tc .vmem S8x7 .f32) (harg7 : arg7.IsWhole) (hc0 : cond0_0 i)
    (x0 : Vec F S8x1 .i32) (x1 : Vec F S8x32768 .f32) (x2 : Vec F S8x32768 .f32) (x3 : Vec F S8x32768 .f32) (x4 : Vec F S8x32768 .f32) : Vec F S8x7 .f32 :=
  VO0_5.read (Elt F) (VO0_5.writes (Elt F) VO0_5.junk (kernelRun0_A c i arg2 harg2 arg3 harg3 arg4 harg4 arg5 harg5 arg6 harg6 arg7 harg7 hc0 x0 x1 x2 x3 x4).1)

/-- An accumulating point's stores cover the output block. -/
theorem cover0_B_5 (c : Dev nD) (i : grid0.Coords) (arg2 : Memref sig .tc .vmem S8x1 .i32) (harg2 : arg2.IsWhole) (arg3 : Memref sig .tc .vmem S8x32768 .f32) (harg3 : arg3.IsWhole) (arg4 : Memref sig .tc .vmem S8x32768 .f32) (harg4 : arg4.IsWhole) (arg5 : Memref sig .tc .vmem S8x32768 .f32) (harg5 : arg5.IsWhole) (arg6 : Memref sig .tc .vmem S8x32768 .f32) (harg6 : arg6.IsWhole) (arg7 : Memref sig .tc .vmem S8x7 .f32) (harg7 : arg7.IsWhole) (hc0 : ¬cond0_0 i)
    (x0 : Vec F S8x1 .i32) (x1 : Vec F S8x32768 .f32) (x2 : Vec F S8x32768 .f32) (x3 : Vec F S8x32768 .f32) (x4 : Vec F S8x32768 .f32) (xo5 : Vec F S8x7 .f32) (y : S8x7.Idx) :
    ∃ pc ∈ (kernelRun0_B c i arg2 harg2 arg3 harg3 arg4 harg4 arg5 harg5 arg6 harg6 arg7 harg7 hc0 x0 x1 x2 x3 x4 xo5).1, y ∈ pc.1.set :=
  View.cover_of_tiledL (kernelRun0_B c i arg2 harg2 arg3 harg3 arg4 harg4 arg5 harg5 arg6 harg6 arg7 harg7 hc0 x0 x1 x2 x3 x4 xo5).1 S8x7.size (by sl_kernel_rfl) y

/-- What an accumulating point leaves in the output block's buffer, which entered at `xo5`. -/
def out0_B_5 (c : Dev nD) (i : grid0.Coords) (arg2 : Memref sig .tc .vmem S8x1 .i32) (harg2 : arg2.IsWhole) (arg3 : Memref sig .tc .vmem S8x32768 .f32) (harg3 : arg3.IsWhole) (arg4 : Memref sig .tc .vmem S8x32768 .f32) (harg4 : arg4.IsWhole) (arg5 : Memref sig .tc .vmem S8x32768 .f32) (harg5 : arg5.IsWhole) (arg6 : Memref sig .tc .vmem S8x32768 .f32) (harg6 : arg6.IsWhole) (arg7 : Memref sig .tc .vmem S8x7 .f32) (harg7 : arg7.IsWhole) (hc0 : ¬cond0_0 i)
    (x0 : Vec F S8x1 .i32) (x1 : Vec F S8x32768 .f32) (x2 : Vec F S8x32768 .f32) (x3 : Vec F S8x32768 .f32) (x4 : Vec F S8x32768 .f32) (xo5 : Vec F S8x7 .f32) : Vec F S8x7 .f32 :=
  VO0_5.read (Elt F) (VO0_5.writes (Elt F) VO0_5.junk (kernelRun0_B c i arg2 harg2 arg3 harg3 arg4 harg4 arg5 harg5 arg6 harg6 arg7 harg7 hc0 x0 x1 x2 x3 x4 xo5).1)

/-! ## What the output block's buffer holds after each point -/

/-- The accumulation: after point `n` the buffer holds the resetting case's result where `n ≡ 0 (mod 4)`, else the
    accumulating case's over what point `n - 1` left. -/
def outsAt0 (c : Dev nD) : (n : ℕ) → n < cfg0.N → Vec F S8x7 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 4 = 0 then
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

theorem outsAt0_A (c : Dev nD) (t : Fin cfg0.N) (h0 : t.val % 4 = 0) :
    outsAt0 m c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at
    `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At an accumulating point the output's buffer holds what the body left at the point before: the buffer is written
    back only after the points ≡ 3 (mod 4). -/
theorem before0_5_B (c : Dev nD) (t : Fin cfg0.N) (h0 : ¬t.val % 4 = 0) (d) :
    (dats m 0 c).before 5 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' buffers hold their blocks; the point's second coordinate says which case it
    is in; at an accumulating point the output's buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 32 := lt_of_lt_of_eq t.isLt (show cfg0.N = 32 from N_0)
  by_cases h0 : t.val % 4 = 0
  · rw [outsAt0_A m c t h0]
    unfold out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _)
  · rw [outsAt0_B m c t h0]
    simp only [before0_5_B m c t h0]
    unfold out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 16000000 in
set_option backward.isDefEq.respectTransparency.types false in
/-- Every weakly fair execution of @main terminates, every array of the pipeline ending at what the proof data say
    and every other unscoped buffer as the later host operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any `F`: the program runs and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.FrameH

end
-- ==== Proof.KI.Kit.lean ====
/-
  The launch side of the frame of `KernelIdeal`: @main is one reshape of the lengths, the region, then 102 host
  operations (cut after the 58th). The region finds its arrays at the contents `V` after the reshape; the later
  operations read the region's result and write only their own result buffers, so the five argument arrays end as
  launched. Stated for any float instance `F`.
-/
import proofs.«114443_j74741020885129_1_alg».proof.Proof.Gen.KernelIdeal.Launch
import proofs.«114443_j74741020885129_1_alg».proof.Proof.Gen.KernelIdeal.Skeleton
import proofs.«114443_j74741020885129_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 65536

noncomputable section

namespace Cert.KernelIdeal.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered: after the reshape of the lengths. -/
abbrev V0 (c : Dev nD) : Valuation τ sig (Elt F) := StableHlo.after (List.flatten [main_part0_ops0]) (fun b => m (c, b))
/-- The same read at a TensorCore reference. -/
abbrev V (c : Dev nD) (b : Ref sig .tc) : Buf (Elt F) ((c : Thread nD τ).loc b) := V0 m c (Proc.devRef .tc b)

/-- The host operations after the region, in two stretches (58 and 44 operations). -/
abbrev tailOps : List (List (HloOp τ sig (Elt F))) := [main_part0_ops1, main_part1_ops0]

theorem ops0_fresh : (main_part0_ops0 : List (HloOp τ sig (Elt F))).Forall fun op => op.fresh = ∅ := by
  simp only [List.Forall]; repeat' constructor
theorem ops1_fresh : (main_part0_ops1 : List (HloOp τ sig (Elt F))).Forall fun op => op.fresh = ∅ := by
  simp only [List.Forall]; repeat' constructor
theorem ops2_fresh : (main_part1_ops0 : List (HloOp τ sig (Elt F))).Forall fun op => op.fresh = ∅ := by
  simp only [List.Forall]; repeat' constructor

set_option maxHeartbeats 8000000 in
/-- @main reduces to the region continued by the later operations, holding the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq main_part0_ops1, StableHlo.seq main_part1_ops0]) :=
  Pipeline.hmain_around cfgs 0 defs₀ 𝒱₀ m main [main_part0_ops0] [main_part0_ops1, main_part1_ops0] (by simp only [List.Forall]; exact main_part0_ops0_sub)
    (by simp only [List.Forall]; exact ops0_fresh) main_chain_windows

/-- The later operations touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl
  · exact Pipeline.sub_ucRefs op ((List.forall_iff_forall_mem.mp main_part0_ops1_sub) op hop)
  · exact Pipeline.sub_ucRefs op ((List.forall_iff_forall_mem.mp main_part1_ops0_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl
  · exact (List.forall_iff_forall_mem.mp ops1_fresh) op hop
  · exact (List.forall_iff_forall_mem.mp ops2_fresh) op hop
set_option maxHeartbeats 8000000 in
/-- No operation of the first later stretch writes an array of the pipeline. -/
theorem keeps1 : ∀ op ∈ (main_part0_ops1 : List (HloOp τ sig (Elt F))), ∀ w, Proc.devRef .tc (Pipeline.arrRef spec0 w) ∉ op.writes := by
  intro op hop
  simp only [main_part0_ops1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
set_option maxHeartbeats 8000000 in
/-- Nor does one of the second. -/
theorem keeps2 : ∀ op ∈ (main_part1_ops0 : List (HloOp τ sig (Elt F))), ∀ w, Proc.devRef .tc (Pipeline.arrRef spec0 w) ∉ op.writes := by
  intro op hop
  simp only [main_part1_ops0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl
  · exact keeps1 op hop
  · exact keeps2 op hop

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes the lengths: they end as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [tailOps, main_part0_ops1, main_part1_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The four float arguments are arrays of input windows (2, 3, 4 and 1), which the run leaves at their entry
    contents; the lengths bypass the region and no later operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 2).trans (((dats 0 c).arrAt_in 2 rfl _).trans ((hA c 2).trans (V_main_arg0 m c))),
      ((h c).1 3).trans (((dats 0 c).arrAt_in 3 rfl _).trans ((hA c 3).trans (V_main_arg1 m c))),
      ((h c).1 4).trans (((dats 0 c).arrAt_in 4 rfl _).trans ((hA c 4).trans (V_main_arg2 m c))),
      ((h c).1 1).trans (((dats 0 c).arrAt_in 1 rfl _).trans ((hA c 1).trans (V_main_arg3 m c))),
      ((h c).2 main_arg4 (Pipeline.mem_restRefs_of main_arg4 (by decide) (by decide))).trans (W_main_arg4 m dats c)⟩) h

/-! ## The body's branch condition -/

/-- The body's one conditional: the second grid coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs -/

/-- One staging buffer of the output window, through which its contents are stated. -/
abbrev VO0_5 : View sig .tc .vmem S8x7 .f32 := (Memref.whole cc0_stg5_0 : Memref sig .tc .vmem S8x7 .f32).view
abbrev ms0_0 (t : Fin cfg0.N) : Memref sig .tc .vmem S8x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x32768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x32768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x32768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x32768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x7 .f32 := win0_5.stage (cfg0.slots t 5)
abbrev hs0_5 (t : Fin cfg0.N) : (ms0_5 t).IsWhole := hstage0_5 ((cfg0.slots t 5).cast nbuf0_5)

end Cert.KernelIdeal.FrameH

end
-- ==== Proof.KI.RunA.lean ====
/-
  The body of `KernelIdeal`'s kernel at a point whose second grid coordinate is zero: the output block's buffer,
  holding anything, is first set to zeros and then receives zeros plus the point's seven masked row sums.
  The stores the body leaves in the output buffer are found by running it.
-/
import proofs.«114443_j74741020885129_1_alg».proof.Proof.KI.Kit

set_option maxRecDepth 65536

noncomputable section

namespace Cert.KernelIdeal.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores into the output buffer at a resetting point, with the proof that the body runs on whole staging
    memrefs holding the input blocks and gives them back unchanged. -/
noncomputable def kernelRun0_A (c : Dev nD) (i : grid0.Coords) (arg2 : Memref sig .tc .vmem S8x1 .i32) (harg2 : arg2.IsWhole) (arg3 : Memref sig .tc .vmem S8x32768 .f32) (harg3 : arg3.IsWhole) (arg4 : Memref sig .tc .vmem S8x32768 .f32) (harg4 : arg4.IsWhole) (arg5 : Memref sig .tc .vmem S8x32768 .f32) (harg5 : arg5.IsWhole) (arg6 : Memref sig .tc .vmem S8x32768 .f32) (harg6 : arg6.IsWhole) (arg7 : Memref sig .tc .vmem S8x7 .f32) (harg7 : arg7.IsWhole) (hc0 : cond0_0 i)
    (x0 : Vec F S8x1 .i32) (x1 : Vec F S8x32768 .f32) (x2 : Vec F S8x32768 .f32) (x3 : Vec F S8x32768 .f32) (x4 : Vec F S8x32768 .f32) :
    { L5 : List (View.Piece (Elt F) S8x7 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__sisdr_reduce_kernel i arg2 harg2 arg3 harg3 arg4 harg4 arg5 harg5 arg6 harg6 arg7 harg7) K } := by
  refine ⟨?_, fun E K => ?run⟩
  case run =>
    simp only [cc0__sisdr_reduce_kernel_eq_skeleton]; unfold cc0__sisdr_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.FrameH

end
-- ==== Proof.KI.RunB.lean ====
/-
  The body of `KernelIdeal`'s kernel at a point whose second grid coordinate is not zero: the output block's buffer
  holds the running sums of the earlier points of its row block and receives them plus the point's seven masked
  row sums.
-/
import proofs.«114443_j74741020885129_1_alg».proof.Proof.KI.RunA

set_option maxRecDepth 65536

noncomputable section

namespace Cert.KernelIdeal.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's stores into the output buffer at an accumulating point, the buffer entering at `xo5`. -/
noncomputable def kernelRun0_B (c : Dev nD) (i : grid0.Coords) (arg2 : Memref sig .tc .vmem S8x1 .i32) (harg2 : arg2.IsWhole) (arg3 : Memref sig .tc .vmem S8x32768 .f32) (harg3 : arg3.IsWhole) (arg4 : Memref sig .tc .vmem S8x32768 .f32) (harg4 : arg4.IsWhole) (arg5 : Memref sig .tc .vmem S8x32768 .f32) (harg5 : arg5.IsWhole) (arg6 : Memref sig .tc .vmem S8x32768 .f32) (harg6 : arg6.IsWhole) (arg7 : Memref sig .tc .vmem S8x7 .f32) (harg7 : arg7.IsWhole) (hc0 : ¬cond0_0 i)
    (x0 : Vec F S8x1 .i32) (x1 : Vec F S8x32768 .f32) (x2 : Vec F S8x32768 .f32) (x3 : Vec F S8x32768 .f32) (x4 : Vec F S8x32768 .f32) (xo5 : Vec F S8x7 .f32) :
    { L5 : List (View.Piece (Elt F) S8x7 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__sisdr_reduce_kernel i arg2 harg2 arg3 harg3 arg4 harg4 arg5 harg5 arg6 harg6 arg7 harg7) K } := by
  refine ⟨?_, fun E K => ?run⟩
  case run =>
    simp only [cc0__sisdr_reduce_kernel_eq_skeleton]; unfold cc0__sisdr_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.FrameH

end
-- ==== Proof.KI.Frame.lean ====
/-
  The frame of `KernelIdeal`: what the output block's buffer holds after each grid point (zeros plus the point's
  row sums where the second coordinate is zero, the previous point's contents plus the point's row sums elsewhere),
  the pipeline's proof data over it, the body obligation at every point, the run of @main and the frame claim.
-/
import proofs.«114443_j74741020885129_1_alg».proof.Proof.KI.RunB

set_option maxRecDepth 65536

noncomputable section

namespace Cert.KernelIdeal.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A resetting point's stores cover the output block. -/
theorem cover0_A_5 (c : Dev nD) (i : grid0.Coords) (arg2 : Memref sig .tc .vmem S8x1 .i32) (harg2 : arg2.IsWhole) (arg3 : Memref sig .tc .vmem S8x32768 .f32) (harg3 : arg3.IsWhole) (arg4 : Memref sig .tc .vmem S8x32768 .f32) (harg4 : arg4.IsWhole) (arg5 : Memref sig .tc .vmem S8x32768 .f32) (harg5 : arg5.IsWhole) (arg6 : Memref sig .tc .vmem S8x32768 .f32) (harg6 : arg6.IsWhole) (arg7 : Memref sig .tc .vmem S8x7 .f32) (harg7 : arg7.IsWhole) (hc0 : cond0_0 i)
    (x0 : Vec F S8x1 .i32) (x1 : Vec F S8x32768 .f32) (x2 : Vec F S8x32768 .f32) (x3 : Vec F S8x32768 .f32) (x4 : Vec F S8x32768 .f32) (y : S8x7.Idx) :
    ∃ pc ∈ (kernelRun0_A c i arg2 harg2 arg3 harg3 arg4 harg4 arg5 harg5 arg6 harg6 arg7 harg7 hc0 x0 x1 x2 x3 x4).1, y ∈ pc.1.set :=
  View.cover_of_tiledL (kernelRun0_A c i arg2 harg2 arg3 harg3 arg4 harg4 arg5 harg5 arg6 harg6 arg7 harg7 hc0 x0 x1 x2 x3 x4).1 S8x7.size (by sl_kernel_rfl) y

/-- What a resetting point leaves in the output block's buffer. -/
def out0_A_5 (c : Dev nD) (i : grid0.Coords) (arg2 : Memref sig .tc .vmem S8x1 .i32) (harg2 : arg2.IsWhole) (arg3 : Memref sig .tc .vmem S8x32768 .f32) (harg3 : arg3.IsWhole) (arg4 : Memref sig .tc .vmem S8x32768 .f32) (harg4 : arg4.IsWhole) (arg5 : Memref sig .tc .vmem S8x32768 .f32) (harg5 : arg5.IsWhole) (arg6 : Memref sig .tc .vmem S8x32768 .f32) (harg6 : arg6.IsWhole) (arg7 : Memref sig .tc .vmem S8x7 .f32) (harg7 : arg7.IsWhole) (hc0 : cond0_0 i)
    (x0 : Vec F S8x1 .i32) (x1 : Vec F S8x32768 .f32) (x2 : Vec F S8x32768 .f32) (x3 : Vec F S8x32768 .f32) (x4 : Vec F S8x32768 .f32) : Vec F S8x7 .f32 :=
  VO0_5.read (Elt F) (VO0_5.writes (Elt F) VO0_5.junk (kernelRun0_A c i arg2 harg2 arg3 harg3 arg4 harg4 arg5 harg5 arg6 harg6 arg7 harg7 hc0 x0 x1 x2 x3 x4).1)

/-- An accumulating point's stores cover the output block. -/
theorem cover0_B_5 (c : Dev nD) (i : grid0.Coords) (arg2 : Memref sig .tc .vmem S8x1 .i32) (harg2 : arg2.IsWhole) (arg3 : Memref sig .tc .vmem S8x32768 .f32) (harg3 : arg3.IsWhole) (arg4 : Memref sig .tc .vmem S8x32768 .f32) (harg4 : arg4.IsWhole) (arg5 : Memref sig .tc .vmem S8x32768 .f32) (harg5 : arg5.IsWhole) (arg6 : Memref sig .tc .vmem S8x32768 .f32) (harg6 : arg6.IsWhole) (arg7 : Memref sig .tc .vmem S8x7 .f32) (harg7 : arg7.IsWhole) (hc0 : ¬cond0_0 i)
    (x0 : Vec F S8x1 .i32) (x1 : Vec F S8x32768 .f32) (x2 : Vec F S8x32768 .f32) (x3 : Vec F S8x32768 .f32) (x4 : Vec F S8x32768 .f32) (xo5 : Vec F S8x7 .f32) (y : S8x7.Idx) :
    ∃ pc ∈ (kernelRun0_B c i arg2 harg2 arg3 harg3 arg4 harg4 arg5 harg5 arg6 harg6 arg7 harg7 hc0 x0 x1 x2 x3 x4 xo5).1, y ∈ pc.1.set :=
  View.cover_of_tiledL (kernelRun0_B c i arg2 harg2 arg3 harg3 arg4 harg4 arg5 harg5 arg6 harg6 arg7 harg7 hc0 x0 x1 x2 x3 x4 xo5).1 S8x7.size (by sl_kernel_rfl) y

/-- What an accumulating point leaves in the output block's buffer, which entered at `xo5`. -/
def out0_B_5 (c : Dev nD) (i : grid0.Coords) (arg2 : Memref sig .tc .vmem S8x1 .i32) (harg2 : arg2.IsWhole) (arg3 : Memref sig .tc .vmem S8x32768 .f32) (harg3 : arg3.IsWhole) (arg4 : Memref sig .tc .vmem S8x32768 .f32) (harg4 : arg4.IsWhole) (arg5 : Memref sig .tc .vmem S8x32768 .f32) (harg5 : arg5.IsWhole) (arg6 : Memref sig .tc .vmem S8x32768 .f32) (harg6 : arg6.IsWhole) (arg7 : Memref sig .tc .vmem S8x7 .f32) (harg7 : arg7.IsWhole) (hc0 : ¬cond0_0 i)
    (x0 : Vec F S8x1 .i32) (x1 : Vec F S8x32768 .f32) (x2 : Vec F S8x32768 .f32) (x3 : Vec F S8x32768 .f32) (x4 : Vec F S8x32768 .f32) (xo5 : Vec F S8x7 .f32) : Vec F S8x7 .f32 :=
  VO0_5.read (Elt F) (VO0_5.writes (Elt F) VO0_5.junk (kernelRun0_B c i arg2 harg2 arg3 harg3 arg4 harg4 arg5 harg5 arg6 harg6 arg7 harg7 hc0 x0 x1 x2 x3 x4 xo5).1)

/-! ## What the output block's buffer holds after each point -/

/-- The accumulation: after point `n` the buffer holds the resetting case's result where `n ≡ 0 (mod 4)`, else the
    accumulating case's over what point `n - 1` left. -/
def outsAt0 (c : Dev nD) : (n : ℕ) → n < cfg0.N → Vec F S8x7 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 4 = 0 then
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

theorem outsAt0_A (c : Dev nD) (t : Fin cfg0.N) (h0 : t.val % 4 = 0) :
    outsAt0 m c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at
    `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At an accumulating point the output's buffer holds what the body left at the point before: the buffer is written
    back only after the points ≡ 3 (mod 4). -/
theorem before0_5_B (c : Dev nD) (t : Fin cfg0.N) (h0 : ¬t.val % 4 = 0) (d) :
    (dats m 0 c).before 5 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' buffers hold their blocks; the point's second coordinate says which case it
    is in; at an accumulating point the output's buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 32 := lt_of_lt_of_eq t.isLt (show cfg0.N = 32 from N_0)
  by_cases h0 : t.val % 4 = 0
  · rw [outsAt0_A m c t h0]
    unfold out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _)
  · rw [outsAt0_B m c t h0]
    simp only [before0_5_B m c t h0]
    unfold out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 16000000 in
set_option backward.isDefEq.respectTransparency.types false in
/-- Every weakly fair execution of @main terminates, every array of the pipeline ending at what the proof data say
    and every other unscoped buffer as the later host operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any `F`: the program runs and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.FrameH

end
-- ==== Proof.Spec.lean ====
/-
  The mathematics both programs compute, on the extended reals.

  A row has a target `t` and an estimate `e` (both already multiplied by the row's 0/1 length mask), over the columns.
  With `T = ∑ t², D = ∑ t·e, E = ∑ e²` and the projection scale `a = D / T`:
  the reference forms `√(∑ (a t)²) / (√(∑ (a t - e)²) + ε)`; the kernel forms `|D| · T^(-1/2) / (√(max (E - D²/T) 0) + ε)`.
  For finite entries and `T > 0` these agree by `∑ (a t)² = a² T = D²/T` and `∑ (a t - e)² = E - D²/T ≥ 0`; for `T = 0`
  every `t` is zero, so both numerators are zero and both quotients are zero (the denominators are positive, the kernel's
  possibly infinite). Each ratio then goes through the same `20 · log₁₀(q + ε)`, weighted sum, negation and mean.
-/
import Idealize.ShloMosaic.PureOps.Ideal
import Idealize.ShloMosaic.PureOps.Ideal.Laws
import Idealize.ShloMosaic.Lib.ValueIdx

noncomputable section

namespace Cert.Spec

open Idealize.ShloMosaic

/-- The length mask's entry for a row of length `len` at column `j`: one where `j < len` as signed 32-bit words, else zero. -/
def mask (len : BitVec 32) (j : ℕ) : EReal := if (BitVec.ofNat 32 j).slt len then 1 else 0

/-- The float literal 9.99999997e-7. -/
abbrev epsW : EReal := Ideal.ofBits .f32 0x358637BD#32

/-- The kernel's ratio of a row from its three sums. -/
def rowK (ε T D E : EReal) : EReal :=
  Ideal.div (max D (-D) * Ideal.rsqrt T) (Ideal.sqrt (max (E - Ideal.div (D * D) T) 0) + ε)

/-- The reference's ratio of a row from its masked target and estimate. -/
def rowR {ι : Type} [Fintype ι] (ε : EReal) (t e : ι → EReal) : EReal :=
  Ideal.div
    (Ideal.sqrt (∑ j, (Ideal.div (∑ k, t k * e k) (∑ k, t k * t k) * t j) * (Ideal.div (∑ k, t k * e k) (∑ k, t k * t k) * t j)))
    (Ideal.sqrt (∑ j, (Ideal.div (∑ k, t k * e k) (∑ k, t k * t k) * t j - e j) * (Ideal.div (∑ k, t k * e k) (∑ k, t k * t k) * t j - e j)) + ε)

/-- A mask entry is a real. -/
theorem mask_real (len : BitVec 32) (j : ℕ) : ∃ r : ℝ, mask len j = (r : EReal) := by
  unfold mask; split
  · exact ⟨1, by norm_num⟩
  · exact ⟨0, by norm_num⟩

/-- One track's score from its ratio: `20 · (log (q + ε) · 0.434294492)`. -/
def sdr (q : EReal) : EReal :=
  Ideal.ofBits .f32 0x41A00000#32 * (Ideal.log (q + epsW) * Ideal.ofBits .f32 0x3EDE5BD9#32)

/-- The loss from the three tracks' ratios: the mean over the 64 rows of `-(0.8 s + 0.1 m + 0.1 l)`. -/
def lossE (qs qm ql : Fin 64 → EReal) : EReal :=
  Ideal.div (∑ b : Fin 64, -((Ideal.ofBits .f32 0x3F4CCCCD#32 * sdr (qs b) + Ideal.ofBits .f32 0x3DCCCCCD#32 * sdr (qm b))
      + Ideal.ofBits .f32 0x3DCCCCCD#32 * sdr (ql b)))
    (Ideal.ofBits .f32 0x42800000#32)

end Cert.Spec

end
-- ==== Proof.SpecSums.lean ====
/-
  The kernel's sums, as functions of the arrays. A row `b` has a masked target `t j = target (b, j) · mask (len b) j` and
  three masked estimates; its seven sums are `∑ t², ∑ t·e₀, ∑ t·e₁, ∑ t·e₂, ∑ e₀², ∑ e₁², ∑ e₂²` over the 131072 columns
  (`rowSum`). The kernel forms them block by block: `gpart` is the same seven sums over the 32768 columns of column block
  `k`, and `part` the same read off one grid point's blocks (8 rows by 32768 columns, the lengths an 8-by-1 block).
-/
import proofs.«114443_j74741020885129_1_alg».proof.Proof.Spec

noncomputable section

namespace Cert.Spec

open Idealize.ShloMosaic Idealize.ShloMosaic.ValueIdx

/-- Column `j` of column block `k`. -/
def colOf (k : Fin 4) (j : Fin 32768) : Fin 131072 := ⟨32768 * k.val + j.val, by have := k.isLt; have := j.isLt; omega⟩

/-- The seven sums of row `r` of one grid point's blocks, the point being in column block `k`: `x0` the lengths' block,
    `x1` the target's, `x2`, `x3`, `x4` the three estimates'. -/
def part (k : ℕ) (x0 : (⟨2, ![8, 1]⟩ : Shape).Idx → BitVec 32) (x1 x2 x3 x4 : (⟨2, ![8, 32768]⟩ : Shape).Idx → EReal) (r : Fin 8) :
    Fin 7 → EReal
  | ⟨0, _⟩ => ∑ j : Fin 32768, (x1 (ix2 r j) * mask (x0 (ix2 r 0)) (32768 * k + j.val)) * (x1 (ix2 r j) * mask (x0 (ix2 r 0)) (32768 * k + j.val))
  | ⟨1, _⟩ => ∑ j : Fin 32768, (x1 (ix2 r j) * mask (x0 (ix2 r 0)) (32768 * k + j.val)) * (x2 (ix2 r j) * mask (x0 (ix2 r 0)) (32768 * k + j.val))
  | ⟨2, _⟩ => ∑ j : Fin 32768, (x1 (ix2 r j) * mask (x0 (ix2 r 0)) (32768 * k + j.val)) * (x3 (ix2 r j) * mask (x0 (ix2 r 0)) (32768 * k + j.val))
  | ⟨3, _⟩ => ∑ j : Fin 32768, (x1 (ix2 r j) * mask (x0 (ix2 r 0)) (32768 * k + j.val)) * (x4 (ix2 r j) * mask (x0 (ix2 r 0)) (32768 * k + j.val))
  | ⟨4, _⟩ => ∑ j : Fin 32768, (x2 (ix2 r j) * mask (x0 (ix2 r 0)) (32768 * k + j.val)) * (x2 (ix2 r j) * mask (x0 (ix2 r 0)) (32768 * k + j.val))
  | ⟨5, _⟩ => ∑ j : Fin 32768, (x3 (ix2 r j) * mask (x0 (ix2 r 0)) (32768 * k + j.val)) * (x3 (ix2 r j) * mask (x0 (ix2 r 0)) (32768 * k + j.val))
  | ⟨6, _⟩ => ∑ j : Fin 32768, (x4 (ix2 r j) * mask (x0 (ix2 r 0)) (32768 * k + j.val)) * (x4 (ix2 r j) * mask (x0 (ix2 r 0)) (32768 * k + j.val))

/-- The seven sums of row `b` over column block `k`, read off the whole arrays: `a3` the target, `a0`, `a1`, `a2` the
    estimates, `a4` the lengths. -/
def gpart (a0 a1 a2 a3 : (⟨2, ![64, 131072]⟩ : Shape).Idx → EReal) (a4 : (⟨1, ![64]⟩ : Shape).Idx → BitVec 32) (b : Fin 64) (k : Fin 4) :
    Fin 7 → EReal
  | ⟨0, _⟩ => ∑ j : Fin 32768, (a3 (ix2 b (colOf k j)) * mask (a4 (ix1 b)) (colOf k j).val) * (a3 (ix2 b (colOf k j)) * mask (a4 (ix1 b)) (colOf k j).val)
  | ⟨1, _⟩ => ∑ j : Fin 32768, (a3 (ix2 b (colOf k j)) * mask (a4 (ix1 b)) (colOf k j).val) * (a0 (ix2 b (colOf k j)) * mask (a4 (ix1 b)) (colOf k j).val)
  | ⟨2, _⟩ => ∑ j : Fin 32768, (a3 (ix2 b (colOf k j)) * mask (a4 (ix1 b)) (colOf k j).val) * (a1 (ix2 b (colOf k j)) * mask (a4 (ix1 b)) (colOf k j).val)
  | ⟨3, _⟩ => ∑ j : Fin 32768, (a3 (ix2 b (colOf k j)) * mask (a4 (ix1 b)) (colOf k j).val) * (a2 (ix2 b (colOf k j)) * mask (a4 (ix1 b)) (colOf k j).val)
  | ⟨4, _⟩ => ∑ j : Fin 32768, (a0 (ix2 b (colOf k j)) * mask (a4 (ix1 b)) (colOf k j).val) * (a0 (ix2 b (colOf k j)) * mask (a4 (ix1 b)) (colOf k j).val)
  | ⟨5, _⟩ => ∑ j : Fin 32768, (a1 (ix2 b (colOf k j)) * mask (a4 (ix1 b)) (colOf k j).val) * (a1 (ix2 b (colOf k j)) * mask (a4 (ix1 b)) (colOf k j).val)
  | ⟨6, _⟩ => ∑ j : Fin 32768, (a2 (ix2 b (colOf k j)) * mask (a4 (ix1 b)) (colOf k j).val) * (a2 (ix2 b (colOf k j)) * mask (a4 (ix1 b)) (colOf k j).val)

/-- The seven sums of row `b` over all its columns. -/
def rowSum (a0 a1 a2 a3 : (⟨2, ![64, 131072]⟩ : Shape).Idx → EReal) (a4 : (⟨1, ![64]⟩ : Shape).Idx → BitVec 32) (b : Fin 64) :
    Fin 7 → EReal
  | ⟨0, _⟩ => ∑ j : Fin 131072, (a3 (ix2 b j) * mask (a4 (ix1 b)) j.val) * (a3 (ix2 b j) * mask (a4 (ix1 b)) j.val)
  | ⟨1, _⟩ => ∑ j : Fin 131072, (a3 (ix2 b j) * mask (a4 (ix1 b)) j.val) * (a0 (ix2 b j) * mask (a4 (ix1 b)) j.val)
  | ⟨2, _⟩ => ∑ j : Fin 131072, (a3 (ix2 b j) * mask (a4 (ix1 b)) j.val) * (a1 (ix2 b j) * mask (a4 (ix1 b)) j.val)
  | ⟨3, _⟩ => ∑ j : Fin 131072, (a3 (ix2 b j) * mask (a4 (ix1 b)) j.val) * (a2 (ix2 b j) * mask (a4 (ix1 b)) j.val)
  | ⟨4, _⟩ => ∑ j : Fin 131072, (a0 (ix2 b j) * mask (a4 (ix1 b)) j.val) * (a0 (ix2 b j) * mask (a4 (ix1 b)) j.val)
  | ⟨5, _⟩ => ∑ j : Fin 131072, (a1 (ix2 b j) * mask (a4 (ix1 b)) j.val) * (a1 (ix2 b j) * mask (a4 (ix1 b)) j.val)
  | ⟨6, _⟩ => ∑ j : Fin 131072, (a2 (ix2 b j) * mask (a4 (ix1 b)) j.val) * (a2 (ix2 b j) * mask (a4 (ix1 b)) j.val)

/-- The region's result array: row `b`, column `col` holds `rowSum … b col`. -/
def sumsG (a0 a1 a2 a3 : (⟨2, ![64, 131072]⟩ : Shape).Idx → EReal) (a4 : (⟨1, ![64]⟩ : Shape).Idx → BitVec 32) :
    (⟨2, ![64, 7]⟩ : Shape).Idx → EReal :=
  fun i => rowSum a0 a1 a2 a3 a4 ⟨(i 0).val, idx2_lt0 i⟩ ⟨(i 1).val, idx2_lt1 i⟩

theorem sumsG_apply (a0 a1 a2 a3 : (⟨2, ![64, 131072]⟩ : Shape).Idx → EReal) (a4 : (⟨1, ![64]⟩ : Shape).Idx → BitVec 32)
    (b : Fin 64) (col : Fin 7) : sumsG a0 a1 a2 a3 a4 (ix2 b col) = rowSum a0 a1 a2 a3 a4 b col := rfl

end Cert.Spec

end
-- ==== Proof.KPoint.lean ====
/-
  One grid point of the kernel, at the extended reals: what the body leaves in the output block's buffer, entry by entry.
  At a resetting point the entry (r, col) is the point's partial sum `part … r col` (zero plus it); at an accumulating
  point it is the entry the buffer came in with plus that partial sum.
-/
import proofs.«114443_j74741020885129_1_alg».proof.Proof.KI.Frame
import proofs.«114443_j74741020885129_1_alg».proof.Proof.SpecSums
import Idealize.ShloMosaic.Lib.ValueIdx
import Idealize.ShloMosaic.Lib.ValueLayout
import Idealize.ShloMosaic.Lib.Pipeline.Value
import Idealize.ShloMosaic.PureOps.Ideal.Laws

set_option maxRecDepth 65536

noncomputable section

namespace Cert.KernelIdeal.KPoint

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.FrameH

open Idealize.ShloMosaic.Tactic

section Pieces

variable {F : FTy → Type} [FloatOps F]

theorem hz2 : (![0, 0] : Fin 2 → Nat) = fun _ => 0 := funext fun a => by fin_cases a <;> rfl

/-- An accumulating point's one store: the buffer's entering contents plus the concatenated seven sums. -/
theorem piece_B (c : Dev nD) (i : grid0.Coords) (arg2 : Memref sig .tc .vmem S8x1 .i32) (harg2 : arg2.IsWhole) (arg3 : Memref sig .tc .vmem S8x32768 .f32) (harg3 : arg3.IsWhole) (arg4 : Memref sig .tc .vmem S8x32768 .f32) (harg4 : arg4.IsWhole) (arg5 : Memref sig .tc .vmem S8x32768 .f32) (harg5 : arg5.IsWhole) (arg6 : Memref sig .tc .vmem S8x32768 .f32) (harg6 : arg6.IsWhole) (arg7 : Memref sig .tc .vmem S8x7 .f32) (harg7 : arg7.IsWhole) (hc0 : ¬cond0_0 i)
    (x0 : Vec F S8x1 .i32) (x1 : Vec F S8x32768 .f32) (x2 : Vec F S8x32768 .f32) (x3 : Vec F S8x32768 .f32) (x4 : Vec F S8x32768 .f32) (xo5 : Vec F S8x7 .f32) :
    out0_B_5 c i arg2 harg2 arg3 harg3 arg4 harg4 arg5 harg5 arg6 harg6 arg7 harg7 hc0 x0 x1 x2 x3 x4 xo5
      = k0_pay1 (k0_pay7 i x0 x4) (k0_pay8 i x0 x1) (k0_pay9 i x0 x1 x2) (k0_pay10 i x0 x1 x3) (k0_pay11 i x0 x1 x4) (k0_pay12 i x0 x2) (k0_pay13 i x0 x3) xo5 := by
  unfold out0_B_5
  rw [View.read_writes_eq_canon _ _ _ (cover0_B_5 c i arg2 harg2 arg3 harg3 arg4 harg4 arg5 harg5 arg6 harg6 arg7 harg7 hc0 x0 x1 x2 x3 x4 xo5)]
  unfold kernelRun0_B
  dsimp only
  sl_unfold_words
  rw [View.canon_unit_zero hz2]
  simp only [View.readAt_eq_ld, harg2.read_unread, harg3.read_unread, harg4.read_unread, harg5.read_unread, harg6.read_unread, harg7.read_unread,
    View.ld_unit_zero (S := S8x7) hz2, View.ld_unit_zero (S := S8x1) hz2, View.ld_unit_zero (S := S8x32768) hz2]

/-- A resetting point's two stores, the later covering: zeros, then zeros read back plus the concatenated seven sums. -/
theorem piece_A (c : Dev nD) (i : grid0.Coords) (arg2 : Memref sig .tc .vmem S8x1 .i32) (harg2 : arg2.IsWhole) (arg3 : Memref sig .tc .vmem S8x32768 .f32) (harg3 : arg3.IsWhole) (arg4 : Memref sig .tc .vmem S8x32768 .f32) (harg4 : arg4.IsWhole) (arg5 : Memref sig .tc .vmem S8x32768 .f32) (harg5 : arg5.IsWhole) (arg6 : Memref sig .tc .vmem S8x32768 .f32) (harg6 : arg6.IsWhole) (arg7 : Memref sig .tc .vmem S8x7 .f32) (harg7 : arg7.IsWhole) (hc0 : cond0_0 i)
    (x0 : Vec F S8x1 .i32) (x1 : Vec F S8x32768 .f32) (x2 : Vec F S8x32768 .f32) (x3 : Vec F S8x32768 .f32) (x4 : Vec F S8x32768 .f32) :
    out0_A_5 c i arg2 harg2 arg3 harg3 arg4 harg4 arg5 harg5 arg6 harg6 arg7 harg7 hc0 x0 x1 x2 x3 x4
      = k0_pay1 (k0_pay7 i x0 x4) (k0_pay8 i x0 x1) (k0_pay9 i x0 x1 x2) (k0_pay10 i x0 x1 x3) (k0_pay11 i x0 x1 x4) (k0_pay12 i x0 x2) (k0_pay13 i x0 x3) k0_pay2 := by
  unfold out0_A_5
  rw [View.read_writes_eq_canon _ _ _ (cover0_A_5 c i arg2 harg2 arg3 harg3 arg4 harg4 arg5 harg5 arg6 harg6 arg7 harg7 hc0 x0 x1 x2 x3 x4)]
  unfold kernelRun0_A
  dsimp only
  sl_unfold_words
  rw [View.canon_cons_unit_zero (S := S8x7) hz2, View.readCov_unit_zero (S := S8x7) _ hz2]
  simp only [View.readAt_eq_ld, harg2.read_unread, harg3.read_unread, harg4.read_unread, harg5.read_unread, harg6.read_unread,
    View.ld_unit_zero (S := S8x1) hz2, View.ld_unit_zero (S := S8x32768) hz2]

end Pieces

section Entries

/-- The lane counter along axis 1 reads the lane. -/
theorem iota_lane (r : Fin 8) (j : Fin 32768) :
    iota .tc S8x32768 32 [1] iota_S8x32768_d1_w32 (ix2 r j) = BitVec.ofNat 32 j.val := by
  show BitVec.ofNat 32 (0 * 32768 + j.val) = _
  rw [Nat.zero_mul, Nat.zero_add]

/-- The lengths' column spread along the lanes reads the row's length. -/
theorem lens_lane (v7 : Vec Ideal S8x1 .i32) (r : Fin 8) (j : Fin 32768) :
    broadcastTo S8x32768 (shapeCast S8x1 v7 shapeCasts_S8x1_S8x1) broadcasts_S8x1_S8x32768 (ix2 r j) = v7 (ix2 r 0) := by
  rw [shapeCast_self]
  refine broadcastTo_apply v7 _ _ (ix2 r 0) fun a => ?_
  match a with
  | ⟨0, _⟩ => rfl
  | ⟨1, _⟩ => rfl

/-- A bit widened to a word and read as a signed integer, as an extended real: one or zero. -/
theorem bit_real (b : Bool) : ((((BitVec.ofBool b).setWidth 32).toInt : ℝ) : EReal) = if b then 1 else 0 := by
  cases b
  · show (((0 : ℤ) : ℝ) : EReal) = 0
    norm_num
  · show (((1 : ℤ) : ℝ) : EReal) = 1
    norm_num

/-- The column's number as a word: block offset plus lane, formed in 32-bit words, is the word of the natural number. -/
theorem col_word (k j : ℕ) : BitVec.ofNat 32 k * 32768#32 + BitVec.ofNat 32 j = BitVec.ofNat 32 (32768 * k + j) := by
  rw [BitVec.ofNat_add, BitVec.ofNat_mul, BitVec.mul_comm]

/-- The kernel's mask at (r, j): the length mask of row r at column 32768·k + j, k the point's column block. -/
theorem pay3_apply (i : grid0.Coords) (v7 : Vec Ideal S8x1 .i32) (r : Fin 8) (j : Fin 32768) :
    k0_pay3 (F := Ideal) i v7 (ix2 r j) = Cert.Spec.mask (v7 (ix2 r 0)) (32768 * (i 1).val + j.val) := by
  unfold k0_pay3
  show ((((BitVec.ofBool (BitVec.slt (BitVec.ofNat 32 (i 1).val * 32768#32 + iota .tc S8x32768 32 [1] iota_S8x32768_d1_w32 (ix2 r j))
      (broadcastTo S8x32768 (shapeCast S8x1 v7 shapeCasts_S8x1_S8x1) broadcasts_S8x1_S8x32768 (ix2 r j)))).setWidth 32).toInt : ℝ) : EReal) = _
  rw [iota_lane, lens_lane, col_word, bit_real]
  rfl

/-- A block times the mask, at (r, j). -/
theorem pay4_apply (i : grid0.Coords) (v7 : Vec Ideal S8x1 .i32) (v : Vec Ideal S8x32768 .f32) (r : Fin 8) (j : Fin 32768) :
    k0_pay4 (F := Ideal) i v7 v (ix2 r j) = v (ix2 r j) * Cert.Spec.mask (v7 (ix2 r 0)) (32768 * (i 1).val + j.val) := by
  unfold k0_pay4
  exact congrArg (v (ix2 r j) * ·) (pay3_apply i v7 r j)

theorem pay5_apply (i : grid0.Coords) (v7 : Vec Ideal S8x1 .i32) (v : Vec Ideal S8x32768 .f32) (r : Fin 8) (j : Fin 32768) :
    k0_pay5 (F := Ideal) i v7 v (ix2 r j) = v (ix2 r j) * Cert.Spec.mask (v7 (ix2 r 0)) (32768 * (i 1).val + j.val) := by
  unfold k0_pay5
  exact congrArg (v (ix2 r j) * ·) (pay3_apply i v7 r j)

theorem pay6_apply (i : grid0.Coords) (v7 : Vec Ideal S8x1 .i32) (v : Vec Ideal S8x32768 .f32) (r : Fin 8) (j : Fin 32768) :
    k0_pay6 (F := Ideal) i v7 v (ix2 r j) = v (ix2 r j) * Cert.Spec.mask (v7 (ix2 r 0)) (32768 * (i 1).val + j.val) := by
  unfold k0_pay6
  exact congrArg (v (ix2 r j) * ·) (pay3_apply i v7 r j)

theorem pay7_apply (i : grid0.Coords) (v7 : Vec Ideal S8x1 .i32) (v : Vec Ideal S8x32768 .f32) (r : Fin 8) (j : Fin 32768) :
    k0_pay7 (F := Ideal) i v7 v (ix2 r j) = v (ix2 r j) * Cert.Spec.mask (v7 (ix2 r 0)) (32768 * (i 1).val + j.val) := by
  unfold k0_pay7
  exact congrArg (v (ix2 r j) * ·) (pay3_apply i v7 r j)

/-- A vector of 8 as a column reads, at (r, 0), the vector at r. -/
theorem col_apply (x : FVec Ideal S8 .f32) (r : Fin 8) : shapeCast S8x1 x shapeCasts_S8_S8x1 (ix2 r 0) = x (ix1 r) :=
  shapeCast_apply x _ _ _ (by
    rw [Shape.rowMajor_val_two, Shape.rowMajor_val_one]
    show r.val = r.val * 1 + 0
    omega)

/-- The index (r, j) is r with the lane j put back on axis 1. -/
theorem lift_lane (r : Fin 8) (j : Fin 32768) : reduces_S8x32768_S8.lift (ix1 r) j = ix2 r j := by
  funext a
  match a with
  | ⟨0, _⟩ => exact Fin.ext rfl
  | ⟨1, _⟩ => exact Fin.ext rfl

/-- The sum along the lanes of a product, at row r. -/
theorem lanesum_apply (a b : FVec Ideal S8x32768 .f32) (r : Fin 8) :
    multiReduction (F := Ideal) .add [1] S8 (mulf a b) 0x00000000#32 reduces_S8x32768_S8 (.inl rfl) rfl (ix1 r)
      = ∑ j : Fin 32768, a (ix2 r j) * b (ix2 r j) := by
  refine (Ideal.multiReduction_add_single (mulf a b) _ reduces_S8x32768_S8 (.inl rfl) rfl (ix1 r)).trans ?_
  refine Finset.sum_congr rfl fun j _ => ?_
  exact congrArg (mulf a b) (lift_lane r j)

/-- The seven sums of the body, each as a column, at (r, 0). -/
theorem pay8_apply (i : grid0.Coords) (v7 : Vec Ideal S8x1 .i32) (v13 : Vec Ideal S8x32768 .f32) (r : Fin 8) :
    k0_pay8 (F := Ideal) i v7 v13 (ix2 r 0)
      = ∑ j : Fin 32768, (v13 (ix2 r j) * Cert.Spec.mask (v7 (ix2 r 0)) (32768 * (i 1).val + j.val)) * (v13 (ix2 r j) * Cert.Spec.mask (v7 (ix2 r 0)) (32768 * (i 1).val + j.val)) := by
  unfold k0_pay8
  refine (col_apply _ r).trans ?_
  refine (lanesum_apply _ _ r).trans ?_
  refine Finset.sum_congr rfl fun j _ => ?_
  rw [pay4_apply]

theorem pay9_apply (i : grid0.Coords) (v7 : Vec Ideal S8x1 .i32) (v13 v15 : Vec Ideal S8x32768 .f32) (r : Fin 8) :
    k0_pay9 (F := Ideal) i v7 v13 v15 (ix2 r 0)
      = ∑ j : Fin 32768, (v13 (ix2 r j) * Cert.Spec.mask (v7 (ix2 r 0)) (32768 * (i 1).val + j.val)) * (v15 (ix2 r j) * Cert.Spec.mask (v7 (ix2 r 0)) (32768 * (i 1).val + j.val)) := by
  unfold k0_pay9
  refine (col_apply _ r).trans ?_
  refine (lanesum_apply _ _ r).trans ?_
  refine Finset.sum_congr rfl fun j _ => ?_
  rw [pay4_apply, pay5_apply]

theorem pay10_apply (i : grid0.Coords) (v7 : Vec Ideal S8x1 .i32) (v13 v17 : Vec Ideal S8x32768 .f32) (r : Fin 8) :
    k0_pay10 (F := Ideal) i v7 v13 v17 (ix2 r 0)
      = ∑ j : Fin 32768, (v13 (ix2 r j) * Cert.Spec.mask (v7 (ix2 r 0)) (32768 * (i 1).val + j.val)) * (v17 (ix2 r j) * Cert.Spec.mask (v7 (ix2 r 0)) (32768 * (i 1).val + j.val)) := by
  unfold k0_pay10
  refine (col_apply _ r).trans ?_
  refine (lanesum_apply _ _ r).trans ?_
  refine Finset.sum_congr rfl fun j _ => ?_
  rw [pay4_apply, pay6_apply]

theorem pay11_apply (i : grid0.Coords) (v7 : Vec Ideal S8x1 .i32) (v13 v19 : Vec Ideal S8x32768 .f32) (r : Fin 8) :
    k0_pay11 (F := Ideal) i v7 v13 v19 (ix2 r 0)
      = ∑ j : Fin 32768, (v13 (ix2 r j) * Cert.Spec.mask (v7 (ix2 r 0)) (32768 * (i 1).val + j.val)) * (v19 (ix2 r j) * Cert.Spec.mask (v7 (ix2 r 0)) (32768 * (i 1).val + j.val)) := by
  unfold k0_pay11
  refine (col_apply _ r).trans ?_
  refine (lanesum_apply _ _ r).trans ?_
  refine Finset.sum_congr rfl fun j _ => ?_
  rw [pay4_apply, pay7_apply]

theorem pay12_apply (i : grid0.Coords) (v7 : Vec Ideal S8x1 .i32) (v15 : Vec Ideal S8x32768 .f32) (r : Fin 8) :
    k0_pay12 (F := Ideal) i v7 v15 (ix2 r 0)
      = ∑ j : Fin 32768, (v15 (ix2 r j) * Cert.Spec.mask (v7 (ix2 r 0)) (32768 * (i 1).val + j.val)) * (v15 (ix2 r j) * Cert.Spec.mask (v7 (ix2 r 0)) (32768 * (i 1).val + j.val)) := by
  unfold k0_pay12
  refine (col_apply _ r).trans ?_
  refine (lanesum_apply _ _ r).trans ?_
  refine Finset.sum_congr rfl fun j _ => ?_
  rw [pay5_apply]

/-- The sixth sum leaves the first part of the body as a vector of 8; the last part makes it a column. -/
theorem pay13_apply (i : grid0.Coords) (v7 : Vec Ideal S8x1 .i32) (v17 : Vec Ideal S8x32768 .f32) (r : Fin 8) :
    shapeCast S8x1 (k0_pay13 (F := Ideal) i v7 v17) shapeCasts_S8_S8x1 (ix2 r 0)
      = ∑ j : Fin 32768, (v17 (ix2 r j) * Cert.Spec.mask (v7 (ix2 r 0)) (32768 * (i 1).val + j.val)) * (v17 (ix2 r j) * Cert.Spec.mask (v7 (ix2 r 0)) (32768 * (i 1).val + j.val)) := by
  unfold k0_pay13
  refine (col_apply _ r).trans ?_
  refine (lanesum_apply _ _ r).trans ?_
  refine Finset.sum_congr rfl fun j _ => ?_
  rw [pay6_apply]

/-- The seventh sum is formed in the last part, from the masked long estimate. -/
theorem last_apply (i : grid0.Coords) (v7 : Vec Ideal S8x1 .i32) (v19 : Vec Ideal S8x32768 .f32) (r : Fin 8) :
    shapeCast S8x1 (multiReduction (F := Ideal) .add [1] S8 (mulf (k0_pay7 i v7 v19) (k0_pay7 i v7 v19)) 0x00000000#32 reduces_S8x32768_S8 (.inl rfl) rfl) shapeCasts_S8_S8x1 (ix2 r 0)
      = ∑ j : Fin 32768, (v19 (ix2 r j) * Cert.Spec.mask (v7 (ix2 r 0)) (32768 * (i 1).val + j.val)) * (v19 (ix2 r j) * Cert.Spec.mask (v7 (ix2 r 0)) (32768 * (i 1).val + j.val)) := by
  refine (col_apply _ r).trans ?_
  refine (lanesum_apply _ _ r).trans ?_
  refine Finset.sum_congr rfl fun j _ => ?_
  rw [pay7_apply]

/-- Off the lane axis, (r, 0) of a column and (r, col) of the block have the same coordinate. -/
theorem off_axis (r : Fin 8) (col : Fin 7) (hr : S8x1.rank = S8x7.rank) (b : Fin S8x1.rank) (hb : b.cast hr ≠ (1 : Fin 2)) :
    ((ix2 r (0 : Fin 1) : S8x1.Idx) b).val = ((ix2 r col : S8x7.Idx) (b.cast hr)).val := by
  match b with
  | ⟨0, _⟩ => rfl
  | ⟨1, _⟩ => exact absurd rfl hb

/-- Seven columns laid side by side, at (r, col): column col at (r, 0). -/
theorem cat_apply (p0 p1 p2 p3 p4 p5 p6 : FVec Ideal S8x1 .f32) (r : Fin 8) (col : Fin 7) :
    concatenate S8x7 1 [⟨S8x1, p0⟩, ⟨S8x1, p1⟩, ⟨S8x1, p2⟩, ⟨S8x1, p3⟩, ⟨S8x1, p4⟩, ⟨S8x1, p5⟩, ⟨S8x1, p6⟩]
        concatenates_S8x1_S8x1_S8x1_S8x1_S8x1_S8x1_S8x1_S8x7_d1 (ix2 r col)
      = (![p0, p1, p2, p3, p4, p5, p6] col) (ix2 r 0) := by
  match col with
  | ⟨0, _⟩ =>
    refine concatenate_apply_piece (1 : Fin 2) _ _ (ix2 r (⟨0, by decide⟩ : Fin 7)) 0 ?_ S8x1 p0 ?_ rfl 0 ?_ (ix2 r 0) (off_axis r _ rfl) ?_
    · show _ < 7
      decide
    · rfl
    · rfl
    · rfl
  | ⟨1, _⟩ =>
    refine concatenate_apply_piece (1 : Fin 2) _ _ (ix2 r (⟨1, by decide⟩ : Fin 7)) 1 ?_ S8x1 p1 ?_ rfl 1 ?_ (ix2 r 0) (off_axis r _ rfl) ?_
    · show _ < 7
      decide
    · rfl
    · rfl
    · rfl
  | ⟨2, _⟩ =>
    refine concatenate_apply_piece (1 : Fin 2) _ _ (ix2 r (⟨2, by decide⟩ : Fin 7)) 2 ?_ S8x1 p2 ?_ rfl 2 ?_ (ix2 r 0) (off_axis r _ rfl) ?_
    · show _ < 7
      decide
    · rfl
    · rfl
    · rfl
  | ⟨3, _⟩ =>
    refine concatenate_apply_piece (1 : Fin 2) _ _ (ix2 r (⟨3, by decide⟩ : Fin 7)) 3 ?_ S8x1 p3 ?_ rfl 3 ?_ (ix2 r 0) (off_axis r _ rfl) ?_
    · show _ < 7
      decide
    · rfl
    · rfl
    · rfl
  | ⟨4, _⟩ =>
    refine concatenate_apply_piece (1 : Fin 2) _ _ (ix2 r (⟨4, by decide⟩ : Fin 7)) 4 ?_ S8x1 p4 ?_ rfl 4 ?_ (ix2 r 0) (off_axis r _ rfl) ?_
    · show _ < 7
      decide
    · rfl
    · rfl
    · rfl
  | ⟨5, _⟩ =>
    refine concatenate_apply_piece (1 : Fin 2) _ _ (ix2 r (⟨5, by decide⟩ : Fin 7)) 5 ?_ S8x1 p5 ?_ rfl 5 ?_ (ix2 r 0) (off_axis r _ rfl) ?_
    · show _ < 7
      decide
    · rfl
    · rfl
    · rfl
  | ⟨6, _⟩ =>
    refine concatenate_apply_piece (1 : Fin 2) _ _ (ix2 r (⟨6, by decide⟩ : Fin 7)) 6 ?_ S8x1 p6 ?_ rfl 6 ?_ (ix2 r 0) (off_axis r _ rfl) ?_
    · show _ < 7
      decide
    · rfl
    · rfl
    · rfl

/-- The stored block at (r, col): what the buffer held there plus column col of the seven sums. -/
theorem pay1_apply (v20 : FVec Ideal S8x32768 .f32) (v23 v26 v29 v32 v35 : FVec Ideal S8x1 .f32) (v37 : FVec Ideal S8 .f32)
    (v43 : Vec Ideal S8x7 .f32) (r : Fin 8) (col : Fin 7) :
    k0_pay1 (F := Ideal) v20 v23 v26 v29 v32 v35 v37 v43 (ix2 r col)
      = v43 (ix2 r col) + (![v23, v26, v29, v32, v35, shapeCast S8x1 v37 shapeCasts_S8_S8x1,
          shapeCast S8x1 (multiReduction (F := Ideal) .add [1] S8 (mulf v20 v20) 0x00000000#32 reduces_S8x32768_S8 (.inl rfl) rfl)
            shapeCasts_S8_S8x1] col) (ix2 r 0) := by
  unfold k0_pay1
  exact congrArg₂ (· + ·) (congrFun (shapeCast_self v43 shapeCasts_S8x7_S8x7) (ix2 r col)) (cat_apply _ _ _ _ _ _ _ r col)

/-- The block of zeros a resetting point stores first. -/
theorem pay2_apply (r : Fin 8) (col : Fin 7) : k0_pay2 (F := Ideal) (ix2 r col) = 0 := Ideal.ofBits_zero_f32

end Entries

/-- A resetting point leaves the point's partial sums. -/
theorem out_A_apply (c : Dev nD) (i : grid0.Coords) (arg2 : Memref sig .tc .vmem S8x1 .i32) (harg2 : arg2.IsWhole) (arg3 : Memref sig .tc .vmem S8x32768 .f32) (harg3 : arg3.IsWhole) (arg4 : Memref sig .tc .vmem S8x32768 .f32) (harg4 : arg4.IsWhole) (arg5 : Memref sig .tc .vmem S8x32768 .f32) (harg5 : arg5.IsWhole) (arg6 : Memref sig .tc .vmem S8x32768 .f32) (harg6 : arg6.IsWhole) (arg7 : Memref sig .tc .vmem S8x7 .f32) (harg7 : arg7.IsWhole) (hc0 : cond0_0 i)
    (x0 : Vec Ideal S8x1 .i32) (x1 : Vec Ideal S8x32768 .f32) (x2 : Vec Ideal S8x32768 .f32) (x3 : Vec Ideal S8x32768 .f32) (x4 : Vec Ideal S8x32768 .f32) (r : Fin 8) (col : Fin 7) :
    out0_A_5 (F := Ideal) c i arg2 harg2 arg3 harg3 arg4 harg4 arg5 harg5 arg6 harg6 arg7 harg7 hc0 x0 x1 x2 x3 x4 (ix2 r col)
      = Cert.Spec.part (i 1).val x0 x1 x2 x3 x4 r col := by
  rw [piece_A]
  refine (pay1_apply _ _ _ _ _ _ _ _ r col).trans ?_
  rw [pay2_apply, zero_add]
  match col with
  | ⟨0, _⟩ => exact pay8_apply i x0 x1 r
  | ⟨1, _⟩ => exact pay9_apply i x0 x1 x2 r
  | ⟨2, _⟩ => exact pay10_apply i x0 x1 x3 r
  | ⟨3, _⟩ => exact pay11_apply i x0 x1 x4 r
  | ⟨4, _⟩ => exact pay12_apply i x0 x2 r
  | ⟨5, _⟩ => exact pay13_apply i x0 x3 r
  | ⟨6, _⟩ => exact last_apply i x0 x4 r

/-- An accumulating point adds the point's partial sums to what the buffer held. -/
theorem out_B_apply (c : Dev nD) (i : grid0.Coords) (arg2 : Memref sig .tc .vmem S8x1 .i32) (harg2 : arg2.IsWhole) (arg3 : Memref sig .tc .vmem S8x32768 .f32) (harg3 : arg3.IsWhole) (arg4 : Memref sig .tc .vmem S8x32768 .f32) (harg4 : arg4.IsWhole) (arg5 : Memref sig .tc .vmem S8x32768 .f32) (harg5 : arg5.IsWhole) (arg6 : Memref sig .tc .vmem S8x32768 .f32) (harg6 : arg6.IsWhole) (arg7 : Memref sig .tc .vmem S8x7 .f32) (harg7 : arg7.IsWhole) (hc0 : ¬cond0_0 i)
    (x0 : Vec Ideal S8x1 .i32) (x1 : Vec Ideal S8x32768 .f32) (x2 : Vec Ideal S8x32768 .f32) (x3 : Vec Ideal S8x32768 .f32) (x4 : Vec Ideal S8x32768 .f32) (xo5 : Vec Ideal S8x7 .f32) (r : Fin 8) (col : Fin 7) :
    out0_B_5 (F := Ideal) c i arg2 harg2 arg3 harg3 arg4 harg4 arg5 harg5 arg6 harg6 arg7 harg7 hc0 x0 x1 x2 x3 x4 xo5 (ix2 r col)
      = xo5 (ix2 r col) + Cert.Spec.part (i 1).val x0 x1 x2 x3 x4 r col := by
  rw [piece_B]
  refine (pay1_apply _ _ _ _ _ _ _ _ r col).trans ?_
  refine congrArg (xo5 (ix2 r col) + ·) ?_
  match col with
  | ⟨0, _⟩ => exact pay8_apply i x0 x1 r
  | ⟨1, _⟩ => exact pay9_apply i x0 x1 x2 r
  | ⟨2, _⟩ => exact pay10_apply i x0 x1 x3 r
  | ⟨3, _⟩ => exact pay11_apply i x0 x1 x4 r
  | ⟨4, _⟩ => exact pay12_apply i x0 x2 r
  | ⟨5, _⟩ => exact pay13_apply i x0 x3 r
  | ⟨6, _⟩ => exact last_apply i x0 x4 r

end Cert.KernelIdeal.KPoint

end
-- ==== Proof.KAcc.lean ====
/-
  The accumulation over the four grid points of a row block: after point `t` (row block `t / 4`, column block `t % 4`)
  the output block's buffer holds, at (r, col), the sum over the column blocks `k ≤ t % 4` of row `8 (t / 4) + r`'s
  partial sums over column block `k`, read off the whole argument arrays.
-/
import proofs.«114443_j74741020885129_1_alg».proof.Proof.KPoint
import proofs.«114443_j74741020885129_1_alg».proof.Proof.SpecSums
import Idealize.ShloMosaic.Lib.ValueIdx
import Idealize.ShloMosaic.Lib.ValueLayout
import Idealize.ShloMosaic.Lib.Pipeline.Value

set_option maxRecDepth 65536

noncomputable section

namespace Cert.KernelIdeal.KAcc

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.FrameH

variable (m : (ℓ : Loc nD τ sig) → Buf (Elt Ideal) ℓ)

/-- The row of the arrays that row `r` of point `t`'s blocks is. -/
def rowOf (t : Fin cfg0.N) (r : Fin 8) : Fin 64 :=
  ⟨8 * (t.val / 4) + r.val, by have := lt_of_lt_of_eq t.isLt (show cfg0.N = 32 from N_0); have := r.isLt; omega⟩

/-! ## The grid's points and the windows' block indices -/

/-- A point's second coordinate is its column block. -/
theorem coord1_eq : ∀ t : Fin cfg0.N, (grid0.coords t 1).val = t.val % 4 :=
  (by decide +kernel : ∀ t : Fin grid0.N, (grid0.coords t 1).val = t.val % 4)

/-- The lengths' block index at point `t`: row block `t / 4`, the one column block. -/
theorem idx0_facts : ∀ t : Fin cfg0.N, win0_0.index t (0 : Fin 2) = t.val / 4 ∧ win0_0.index t (1 : Fin 2) = 0 :=
  (by decide +kernel : ∀ t : Fin grid0.N, _)

/-- Window 1's block index at point `t`: row block `t / 4`, column block `t % 4`. -/
theorem idx1_facts : ∀ t : Fin cfg0.N, win0_1.index t (0 : Fin 2) = t.val / 4 ∧ win0_1.index t (1 : Fin 2) = t.val % 4 :=
  (by decide +kernel : ∀ t : Fin grid0.N, _)

/-- Window 2's block index at point `t`: row block `t / 4`, column block `t % 4`. -/
theorem idx2_facts : ∀ t : Fin cfg0.N, win0_2.index t (0 : Fin 2) = t.val / 4 ∧ win0_2.index t (1 : Fin 2) = t.val % 4 :=
  (by decide +kernel : ∀ t : Fin grid0.N, _)

/-- Window 3's block index at point `t`: row block `t / 4`, column block `t % 4`. -/
theorem idx3_facts : ∀ t : Fin cfg0.N, win0_3.index t (0 : Fin 2) = t.val / 4 ∧ win0_3.index t (1 : Fin 2) = t.val % 4 :=
  (by decide +kernel : ∀ t : Fin grid0.N, _)

/-- Window 4's block index at point `t`: row block `t / 4`, column block `t % 4`. -/
theorem idx4_facts : ∀ t : Fin cfg0.N, win0_4.index t (0 : Fin 2) = t.val / 4 ∧ win0_4.index t (1 : Fin 2) = t.val % 4 :=
  (by decide +kernel : ∀ t : Fin grid0.N, _)

/-! ## The blocks, entry by entry, read off the argument arrays -/

/-- The lengths' [64, 1] array the region finds is the [64] argument reshaped. -/
theorem V_main_v0 (c : Dev nD) :
    (V m c main_v0 : S64x1.Idx → BitVec 32) = shapeCast S64x1 (m ((c.tc : Thread nD τ).loc main_arg4)) shapeCasts_S64_S64x1 := by
  dsimp only [V, V0, main_part0_ops0]
  simp only [List.flatten_cons, List.flatten_nil, List.append_nil]
  after_results
  rfl

/-- The lengths' block at point `t`, entry (r, 0): the length of row `8 (t / 4) + r`. -/
theorem iblk0_apply (c : Dev nD) (t : Fin cfg0.N) (r : Fin 8) :
    (iblk m c 0 t : Vec Ideal S8x1 .i32) (ix2 r 0) = m ((c.tc : Thread nD τ).loc main_arg4) (ix1 (rowOf t r)) := by
  obtain ⟨e0, e1⟩ := idx0_facts t
  unfold iblk
  rw [View.read_apply]
  show V m c main_v0 _ = _
  rw [V_main_v0]
  refine shapeCast_apply _ _ _ _ ?_
  rw [Shape.rowMajor_val_two]
  show ((⟨1, ![64]⟩ : Shape).rowMajor (ix1 (rowOf t r))).val
    = (win0_0.index t (0 : Fin 2) * 8 + 1 * r.val) * 1 + (win0_0.index t (1 : Fin 2) * 1 + 1 * 0)
  rw [Shape.rowMajor_val_one]
  show 8 * (t.val / 4) + r.val = _
  omega

/-- Window 1's block (the target's) at point `t`, entry (r, j): the array at row `8 (t / 4) + r`, column `32768 (t % 4) + j`. -/
theorem iblk1_apply (c : Dev nD) (t : Fin cfg0.N) (r : Fin 8) (j : Fin 32768) :
    (iblk m c 1 t : Vec Ideal S8x32768 .f32) (ix2 r j)
      = m ((c.tc : Thread nD τ).loc main_arg3) (ix2 (rowOf t r) (Cert.Spec.colOf ⟨t.val % 4, Nat.mod_lt _ (by decide)⟩ j)) := by
  obtain ⟨e0, e1⟩ := idx1_facts t
  unfold iblk
  rw [View.read_apply]
  show V m c main_arg3 _ = _
  rw [V_main_arg3]
  congr 1
  funext a; apply Fin.ext
  match a with
  | ⟨0, _⟩ => show win0_1.index t (0 : Fin 2) * 8 + 1 * r.val = 8 * (t.val / 4) + r.val; omega
  | ⟨1, _⟩ => show win0_1.index t (1 : Fin 2) * 32768 + 1 * j.val = 32768 * (t.val % 4) + j.val; omega

/-- Window 2's block (the first estimate's) at point `t`, entry (r, j): the array at row `8 (t / 4) + r`, column `32768 (t % 4) + j`. -/
theorem iblk2_apply (c : Dev nD) (t : Fin cfg0.N) (r : Fin 8) (j : Fin 32768) :
    (iblk m c 2 t : Vec Ideal S8x32768 .f32) (ix2 r j)
      = m ((c.tc : Thread nD τ).loc main_arg0) (ix2 (rowOf t r) (Cert.Spec.colOf ⟨t.val % 4, Nat.mod_lt _ (by decide)⟩ j)) := by
  obtain ⟨e0, e1⟩ := idx2_facts t
  unfold iblk
  rw [View.read_apply]
  show V m c main_arg0 _ = _
  rw [V_main_arg0]
  congr 1
  funext a; apply Fin.ext
  match a with
  | ⟨0, _⟩ => show win0_2.index t (0 : Fin 2) * 8 + 1 * r.val = 8 * (t.val / 4) + r.val; omega
  | ⟨1, _⟩ => show win0_2.index t (1 : Fin 2) * 32768 + 1 * j.val = 32768 * (t.val % 4) + j.val; omega

/-- Window 3's block (the second estimate's) at point `t`, entry (r, j): the array at row `8 (t / 4) + r`, column `32768 (t % 4) + j`. -/
theorem iblk3_apply (c : Dev nD) (t : Fin cfg0.N) (r : Fin 8) (j : Fin 32768) :
    (iblk m c 3 t : Vec Ideal S8x32768 .f32) (ix2 r j)
      = m ((c.tc : Thread nD τ).loc main_arg1) (ix2 (rowOf t r) (Cert.Spec.colOf ⟨t.val % 4, Nat.mod_lt _ (by decide)⟩ j)) := by
  obtain ⟨e0, e1⟩ := idx3_facts t
  unfold iblk
  rw [View.read_apply]
  show V m c main_arg1 _ = _
  rw [V_main_arg1]
  congr 1
  funext a; apply Fin.ext
  match a with
  | ⟨0, _⟩ => show win0_3.index t (0 : Fin 2) * 8 + 1 * r.val = 8 * (t.val / 4) + r.val; omega
  | ⟨1, _⟩ => show win0_3.index t (1 : Fin 2) * 32768 + 1 * j.val = 32768 * (t.val % 4) + j.val; omega

/-- Window 4's block (the third estimate's) at point `t`, entry (r, j): the array at row `8 (t / 4) + r`, column `32768 (t % 4) + j`. -/
theorem iblk4_apply (c : Dev nD) (t : Fin cfg0.N) (r : Fin 8) (j : Fin 32768) :
    (iblk m c 4 t : Vec Ideal S8x32768 .f32) (ix2 r j)
      = m ((c.tc : Thread nD τ).loc main_arg2) (ix2 (rowOf t r) (Cert.Spec.colOf ⟨t.val % 4, Nat.mod_lt _ (by decide)⟩ j)) := by
  obtain ⟨e0, e1⟩ := idx4_facts t
  unfold iblk
  rw [View.read_apply]
  show V m c main_arg2 _ = _
  rw [V_main_arg2]
  congr 1
  funext a; apply Fin.ext
  match a with
  | ⟨0, _⟩ => show win0_4.index t (0 : Fin 2) * 8 + 1 * r.val = 8 * (t.val / 4) + r.val; omega
  | ⟨1, _⟩ => show win0_4.index t (1 : Fin 2) * 32768 + 1 * j.val = 32768 * (t.val % 4) + j.val; omega

/-! ## A point's partial sums are the arrays' sums over the point's column block -/

/-- The seven sums over one grid point's blocks are row `8 (t / 4) + r`'s sums over column block `t % 4`. -/
theorem part_eq_gpart (c : Dev nD) (t : Fin cfg0.N) (r : Fin 8) (col : Fin 7) :
    Cert.Spec.part (grid0.coords t 1).val (iblk m c 0 t) (iblk m c 1 t) (iblk m c 2 t) (iblk m c 3 t) (iblk m c 4 t) r col
      = Cert.Spec.gpart (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (rowOf t r) ⟨t.val % 4, Nat.mod_lt _ (by decide)⟩ col := by
  rw [coord1_eq t]
  fin_cases col <;>
  · simp only [Cert.Spec.part, Cert.Spec.gpart]
    refine Finset.sum_congr rfl fun j _ => ?_
    simp only [iblk0_apply, iblk1_apply, iblk2_apply, iblk3_apply, iblk4_apply]
    rfl

/-! ## Sums over the column blocks up to one -/

/-- The column blocks up to `q + 1` are those up to `q` and `q + 1`. -/
theorem filter_le_succ (q : ℕ) (hq : q + 1 < 4) :
    Finset.univ.filter (fun k : Fin 4 => k.val ≤ q + 1)
      = insert (⟨q + 1, hq⟩ : Fin 4) (Finset.univ.filter (fun k : Fin 4 => k.val ≤ q)) := by
  ext k
  simp only [Finset.mem_filter, Finset.mem_univ, true_and, Finset.mem_insert, Fin.ext_iff]
  omega

/-- Adding column block `b = a + 1`'s term to the sum up to `a` gives the sum up to `b`. -/
theorem sum_le_step (f : Fin 4 → EReal) (a b : ℕ) (k : Fin 4) (hk : k.val = b) (hab : b = a + 1) :
    (∑ j ∈ Finset.univ.filter (fun j : Fin 4 => j.val ≤ a), f j) + f k
      = ∑ j ∈ Finset.univ.filter (fun j : Fin 4 => j.val ≤ b), f j := by
  subst hab
  obtain ⟨kv, hkv⟩ := k
  obtain rfl : kv = a + 1 := hk
  rw [filter_le_succ a hkv, Finset.sum_insert (by simp), add_comm]

/-- The sum up to column block `0` is its one term. -/
theorem sum_le_zero (f : Fin 4 → EReal) (b : ℕ) (k : Fin 4) (hk : k.val = b) (hb : b = 0) :
    f k = ∑ j ∈ Finset.univ.filter (fun j : Fin 4 => j.val ≤ b), f j := by
  subst hb
  have hs : Finset.univ.filter (fun j : Fin 4 => j.val ≤ 0) = {k} := by
    ext j
    simp only [Finset.mem_filter, Finset.mem_univ, true_and, Finset.mem_singleton, Fin.ext_iff]
    omega
  rw [hs, Finset.sum_singleton]

/-! ## The accumulation -/

/-- A resetting point (`t % 4 = 0`) leaves column block 0's sums. -/
theorem acc_A (c : Dev nD) (t : Fin cfg0.N) (h0 : t.val % 4 = 0) (r : Fin 8) (col : Fin 7) :
    outsAt0 (F := Ideal) m c t.val t.isLt (ix2 r col)
      = ∑ k ∈ Finset.univ.filter (fun k : Fin 4 => k.val ≤ t.val % 4),
          Cert.Spec.gpart (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (rowOf t r) k col := by
  rw [outsAt0_A m c t h0]
  refine (KPoint.out_A_apply c (grid0.coords t) _ _ _ _ _ _ _ _ _ _ _ _ _ _ _ _ _ _ r col).trans ?_
  rw [part_eq_gpart m c t r col]
  exact sum_le_zero (fun k => Cert.Spec.gpart (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (rowOf t r) k col) (t.val % 4) _ rfl h0

/-- An accumulating point (`t % 4 ≠ 0`) adds its column block's sums to what point `t - 1` left. -/
theorem acc_B (c : Dev nD) (t : Fin cfg0.N) (h0 : ¬t.val % 4 = 0) (r : Fin 8) (col : Fin 7)
    (ih : outsAt0 (F := Ideal) m c (t.val - 1) (Nat.lt_of_le_of_lt (Nat.sub_le _ _) t.isLt) (ix2 r col)
      = ∑ k ∈ Finset.univ.filter (fun k : Fin 4 => k.val ≤ (t.val - 1) % 4),
          Cert.Spec.gpart (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (rowOf ⟨t.val - 1, Nat.lt_of_le_of_lt (Nat.sub_le _ _) t.isLt⟩ r) k col) :
    outsAt0 (F := Ideal) m c t.val t.isLt (ix2 r col)
      = ∑ k ∈ Finset.univ.filter (fun k : Fin 4 => k.val ≤ t.val % 4),
          Cert.Spec.gpart (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (rowOf t r) k col := by
  rw [outsAt0_B m c t h0]
  refine (KPoint.out_B_apply c (grid0.coords t) _ _ _ _ _ _ _ _ _ _ _ _ _ _ _ _ _ _ _ r col).trans ?_
  have hrow : rowOf ⟨t.val - 1, Nat.lt_of_le_of_lt (Nat.sub_le _ _) t.isLt⟩ r = rowOf t r :=
    Fin.ext (by show 8 * ((t.val - 1) / 4) + r.val = 8 * (t.val / 4) + r.val; omega)
  rw [ih, hrow, part_eq_gpart m c t r col]
  exact sum_le_step (fun k => Cert.Spec.gpart (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (rowOf t r) k col) ((t.val - 1) % 4) (t.val % 4) _ rfl (by omega)

/-- After point `n` the buffer holds the sums of the column blocks up to `n % 4`, by induction on the point. -/
theorem acc_aux (c : Dev nD) : ∀ (n : ℕ) (hn : n < cfg0.N) (r : Fin 8) (col : Fin 7),
    outsAt0 (F := Ideal) m c n hn (ix2 r col)
      = ∑ k ∈ Finset.univ.filter (fun k : Fin 4 => k.val ≤ n % 4),
          Cert.Spec.gpart (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (rowOf ⟨n, hn⟩ r) k col
  | 0, hn, r, col => acc_A m c ⟨0, hn⟩ rfl r col
  | n + 1, hn, r, col => by
    by_cases h0 : (n + 1) % 4 = 0
    · exact acc_A m c ⟨n + 1, hn⟩ h0 r col
    · exact acc_B m c ⟨n + 1, hn⟩ h0 r col (acc_aux c n (Nat.lt_of_succ_lt hn) r col)

/-- After point `t` the buffer holds the partial sums of the column blocks up to the point's. -/
theorem acc_eq (c : Dev nD) (t : Fin cfg0.N) (r : Fin 8) (col : Fin 7) :
    outsAt0 (F := Ideal) m c t.val t.isLt (ix2 r col)
      = ∑ k ∈ Finset.univ.filter (fun k : Fin 4 => k.val ≤ t.val % 4),
          Cert.Spec.gpart (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (rowOf t r) k col := by
  exact acc_aux m c t.val t.isLt r col

end Cert.KernelIdeal.KAcc

end
-- ==== Proof.SpecAux.lean ====
/-
  Small facts about the specification's literals and sums.
-/
import proofs.«114443_j74741020885129_1_alg».proof.Proof.Spec
import Mathlib.Logic.Equiv.Fin.Basic
import Mathlib.Algebra.BigOperators.Fin

noncomputable section

namespace Cert.Spec

open Idealize.ShloMosaic

/-- The literal's pattern has sign 0, exponent field 107 and trailing significand 407485, so it denotes
    the dyadic rational `(2^23 + 407485) · 2^(107 - 127 - 23) = 8796093 · 2^(-43)`. -/
theorem eps_val : epsW = (((8796093 : ℝ) * (2 : ℝ) ^ (-43 : ℤ) : ℝ) : EReal) := by
  simp [epsW, Ideal.ofBits, Ideal.ieee, -EReal.coe_mul]

/-- The literal ε is a positive real. -/
theorem eps_real : ∃ ε : ℝ, 0 < ε ∧ epsW = (ε : EReal) :=
  ⟨(8796093 : ℝ) * (2 : ℝ) ^ (-43 : ℤ), by positivity, eps_val⟩

/-- A sum over the 131072 columns is the sum over the 4 column blocks of the sums over each block's 32768 columns. -/
theorem sum_blocks (f : ℕ → EReal) :
    ∑ j : Fin 131072, f j.val = ∑ k : Fin 4, ∑ j : Fin 32768, f (32768 * k.val + j.val) := by
  -- the double sum is a sum over pairs `(k, j)`, and `(k, j) ↦ j + 32768 · k` is a bijection onto the columns
  rw [← Fintype.sum_prod_type']
  symm
  exact Fintype.sum_equiv (finProdFinEquiv (m := 4) (n := 32768)) _ _ (fun p => by
    simp [finProdFinEquiv, Nat.add_comm])

end Cert.Spec

end
-- ==== Proof.KSums.lean ====
/-
  From blocks to the array: the region's result array after the run. Its block for row block `bb` is written back
  once, after the row block's last point `4 bb + 3`, when the buffer holds the sums over all four column blocks; the
  row blocks tile the array; and the four column blocks' sums add up to the sum over all 131072 columns.
-/
import proofs.«114443_j74741020885129_1_alg».proof.Proof.KAcc
import proofs.«114443_j74741020885129_1_alg».proof.Proof.SpecSums
import proofs.«114443_j74741020885129_1_alg».proof.Proof.SpecAux
import Idealize.ShloMosaic.Lib.ValueIdx
import Idealize.ShloMosaic.Lib.Pipeline.Value

set_option maxRecDepth 65536

noncomputable section

namespace Cert.KernelIdeal.KSums

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.FrameH
open Cert.Spec (colOf gpart rowSum sumsG mask)

/-! ## The four column blocks' sums add up to the row's -/

/-- A sum over the 131072 columns, split into the four column blocks of 32768 columns each. -/
theorem sum_colOf (g : Fin 131072 → EReal) :
    ∑ k : Fin 4, ∑ j : Fin 32768, g (colOf k j) = ∑ j : Fin 131072, g j := by
  -- extend `g` by zero past the last column, so that it is a function of the column's number
  have hsplit := Cert.Spec.sum_blocks (fun n => if h : n < 131072 then g ⟨n, h⟩ else 0)
  have hwhole : ∑ j : Fin 131072, (fun n => if h : n < 131072 then g ⟨n, h⟩ else 0) j.val = ∑ j : Fin 131072, g j :=
    Finset.sum_congr rfl fun j _ => dif_pos j.isLt
  have hparts : ∑ k : Fin 4, ∑ j : Fin 32768, (fun n => if h : n < 131072 then g ⟨n, h⟩ else 0) (32768 * k.val + j.val)
      = ∑ k : Fin 4, ∑ j : Fin 32768, g (colOf k j) :=
    Finset.sum_congr rfl fun k _ => Finset.sum_congr rfl fun j _ => dif_pos (colOf k j).isLt
  rw [← hparts, ← hsplit, hwhole]

/-- Each of a row's seven sums is the sum over the four column blocks of the block's. -/
theorem sum_gpart (a0 a1 a2 a3 : (⟨2, ![64, 131072]⟩ : Shape).Idx → EReal) (a4 : (⟨1, ![64]⟩ : Shape).Idx → BitVec 32)
    (b : Fin 64) (col : Fin 7) : ∑ k : Fin 4, gpart a0 a1 a2 a3 a4 b k col = rowSum a0 a1 a2 a3 a4 b col := by
  match col with
  | ⟨0, _⟩ => exact sum_colOf fun j => (a3 (ix2 b j) * mask (a4 (ix1 b)) j.val) * (a3 (ix2 b j) * mask (a4 (ix1 b)) j.val)
  | ⟨1, _⟩ => exact sum_colOf fun j => (a3 (ix2 b j) * mask (a4 (ix1 b)) j.val) * (a0 (ix2 b j) * mask (a4 (ix1 b)) j.val)
  | ⟨2, _⟩ => exact sum_colOf fun j => (a3 (ix2 b j) * mask (a4 (ix1 b)) j.val) * (a1 (ix2 b j) * mask (a4 (ix1 b)) j.val)
  | ⟨3, _⟩ => exact sum_colOf fun j => (a3 (ix2 b j) * mask (a4 (ix1 b)) j.val) * (a2 (ix2 b j) * mask (a4 (ix1 b)) j.val)
  | ⟨4, _⟩ => exact sum_colOf fun j => (a0 (ix2 b j) * mask (a4 (ix1 b)) j.val) * (a0 (ix2 b j) * mask (a4 (ix1 b)) j.val)
  | ⟨5, _⟩ => exact sum_colOf fun j => (a1 (ix2 b j) * mask (a4 (ix1 b)) j.val) * (a1 (ix2 b j) * mask (a4 (ix1 b)) j.val)
  | ⟨6, _⟩ => exact sum_colOf fun j => (a2 (ix2 b j) * mask (a4 (ix1 b)) j.val) * (a2 (ix2 b j) * mask (a4 (ix1 b)) j.val)

variable (m : (ℓ : Loc nD τ sig) → Buf (Elt Ideal) ℓ)

/-! ## The result window over the grid -/

/-- The result window's block index at point `t`: row block `t / 4`, the one column block. -/
theorem idx_facts : ∀ t : Fin cfg0.N, win0_5.index t (0 : Fin 2) = t.val / 4 ∧ win0_5.index t (1 : Fin 2) = 0 :=
  (by decide +kernel : ∀ t : Fin grid0.N, _)

/-- Entry (r, col) of point `t`'s result block is entry (8 (t / 4) + r, col) of the array. -/
theorem emb_blk (t : Fin cfg0.N) (r : Fin 8) (col : Fin 7) :
    ((cfg0.win 5).blk t).view.emb (ix2 r col) = ix2 (KAcc.rowOf t r) col := by
  obtain ⟨e0, e1⟩ := idx_facts t
  funext a; apply Fin.ext
  match a with
  | ⟨0, _⟩ => show win0_5.index t (0 : Fin 2) * 8 + 1 * r.val = 8 * (t.val / 4) + r.val; omega
  | ⟨1, _⟩ => show win0_5.index t (1 : Fin 2) * 7 + 1 * col.val = col.val; omega

/-- After a row block's last point the buffer's entry (r, col) is row `8 (t / 4) + r`'s sum `col` over all columns. -/
theorem acc_last (c : Dev nD) (t : Fin cfg0.N) (h3 : t.val % 4 = 3) (r : Fin 8) (col : Fin 7) :
    outsAt0 (F := Ideal) m c t.val t.isLt (ix2 r col)
      = sumsG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (((cfg0.win 5).blk t).view.emb (ix2 r col)) := by
  -- all four column blocks are at or before the last
  have hall : (Finset.univ.filter fun k : Fin 4 => k.val ≤ t.val % 4) = Finset.univ :=
    Finset.filter_true_of_mem fun k _ => by have := k.isLt; omega
  rw [emb_blk, KAcc.acc_eq, hall, sum_gpart, Cert.Spec.sumsG_apply]

/-- What a point that writes the result block back writes is its block of the array of the rows' sums. -/
theorem flushed_eq (c : Dev nD) (t : Fin cfg0.N) (hf : (cfg0.win 5).flush t = true) :
    (dats m 0 c).flushed 5 t = ((cfg0.win 5).blk t).view.read (Elt Ideal)
      (sumsG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  have h3 : t.val % 4 = 3 := (flush0_5 t).mp hf
  show (cfg0.win 5).cut (grid0.coords t) ((dats m 0 c).after 5 t) = _
  rw [after0_5]
  funext y
  show outsAt0 (F := Ideal) m c t.val t.isLt y
    = sumsG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (((cfg0.win 5).blk t).view.emb y)
  rw [eq_ix2 (n0 := 8) (n1 := 7) y]
  exact acc_last m c t h3 (y 0) (y 1)

/-! ## The row blocks tile the array -/

/-- An entry of the array is in point `t`'s block iff each coordinate is in the block's range on its axis. -/
theorem mem_blk (t : Fin cfg0.N) (i : S64x7.Idx) :
    i ∈ ((cfg0.win 5).blk t).view.set
      ↔ ∀ a : Fin 2, win0_5.index t a * S8x7.size a ≤ (i a).val ∧ (i a).val < win0_5.index t a * S8x7.size a + S8x7.size a := by
  show i ∈ ((View.whole main_v1).slice (win0_5.rect t)).set ↔ _
  rw [View.set_slice_whole, Rect.mem_set_unit]
  exact Iff.rfl

/-- Entry (b, col) of the array is in the block written back after the last point of row block `b / 8`. -/
theorem cover (i : S64x7.Idx) : ∃ t : Fin cfg0.N, (cfg0.win 5).flush t = true ∧ i ∈ ((cfg0.win 5).blk t).view.set := by
  have hi0 : (i 0).val < 64 := idx2_lt0 i
  have hi1 : (i 1).val < 7 := idx2_lt1 i
  have hN : cfg0.N = 32 := N_0
  obtain ⟨t, ht⟩ : ∃ t : Fin cfg0.N, t.val = 4 * ((i 0).val / 8) + 3 := ⟨⟨4 * ((i 0).val / 8) + 3, by rw [hN]; omega⟩, rfl⟩
  obtain ⟨e0, e1⟩ := idx_facts t
  refine ⟨t, (flush0_5 t).mpr (by omega), ?_⟩
  rw [mem_blk]
  intro a
  match a with
  | ⟨0, _⟩ => show win0_5.index t (0 : Fin 2) * 8 ≤ (i 0).val ∧ (i 0).val < win0_5.index t (0 : Fin 2) * 8 + 8; omega
  | ⟨1, _⟩ => show win0_5.index t (1 : Fin 2) * 7 ≤ (i 1).val ∧ (i 1).val < win0_5.index t (1 : Fin 2) * 7 + 7; omega

/-! ## The array -/

/-- The region's result array after the run is the array of the rows' seven sums. -/
theorem sums_eq (c : Dev nD) :
    ((dats m 0 c).arrAt 5 cfg0.N : FVec Ideal S64x7 .f32)
      = Cert.Spec.sumsG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (dats m 0 c).arrAt_eq_of_cover 5 _ (fun t hf => flushed_eq m c t hf) cover

end Cert.KernelIdeal.KSums

end
-- ==== Proof.KTail.lean ====
/-
  The kernel program's host operations after the region, read at the extended reals: from the region's result
  `S` (64 rows of seven sums) each track's ratio at row `b` is the specification's kernel-form ratio of the row's
  sums, and the program's result is the specification's loss of the three tracks' ratios.
-/
import proofs.«114443_j74741020885129_1_alg».proof.Proof.KI.Kit
import proofs.«114443_j74741020885129_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.IdealHost
import Idealize.ShloMosaic.Lib.ValueIdxRank1

set_option maxRecDepth 65536

noncomputable section

namespace Cert.KernelIdeal.KTail

open Idealize.ShloMosaic Idealize.ShloMosaic.TcCoe Idealize.ShloMosaic.ValueIdx
open Idealize.SL Idealize.SL.Sem
open Idealize.ShloMosaic.Pipeline (Dat Cfg)
open Cert.KernelIdeal Cert.KernelIdeal.Gen Cert.KernelIdeal.FrameH

variable (m : (ℓ : Loc nD τ sig) → Buf (Elt Ideal) ℓ)

/-- The three tracks' ratios from the sums, then the loss. -/
def lossOfSums (S : FVec Ideal S64x7 .f32) : EReal :=
  Cert.Spec.lossE
    (fun b => Cert.Spec.rowK Cert.Spec.epsW (S (ix2 b 0)) (S (ix2 b 1)) (S (ix2 b 4)))
    (fun b => Cert.Spec.rowK Cert.Spec.epsW (S (ix2 b 0)) (S (ix2 b 2)) (S (ix2 b 5)))
    (fun b => Cert.Spec.rowK Cert.Spec.epsW (S (ix2 b 0)) (S (ix2 b 3)) (S (ix2 b 6)))

/-! ## The later operations as one function of the region's result -/

/-- Column `o` of the sums, cut out as a one-column matrix and flattened to a vector over the rows. -/
def colV (X : FVec Ideal S64x7 .f32) (o : ℕ) (h : S64x7.Slices ![0, o] S64x1) : FVec Ideal S64 .f32 :=
  fun i => shapeCast S64 (extractStridedSlice S64x1 ![0, o] X h) shapeCasts_S64x1_S64 i

/-- A float literal copied to every row. -/
def bc (w : BitVec 32) : FVec Ideal S64 .f32 := broadcastInDim S64 ![] bcast_S_S64 (constant (F := Ideal) S_ .f32 w)

/-- One track's scores over the rows, from the columns `T`, `D`, `E`. -/
def trackV (T D E : FVec Ideal S64 .f32) : FVec Ideal S64 .f32 :=
  mulf (bc 0x41A00000#32)
    (mulf
      (Host.log
        (addf
          (Host.divf (mulf (Host.absf D) (Host.rsqrt T))
            (addf (Host.sqrt (maximumf (subf E (Host.divf (mulf D D) T)) (bc 0x00000000#32))) (bc 0x358637BD#32)))
          (bc 0x358637BD#32)))
      (bc 0x3EDE5BD9#32))

/-- The later operations' result as a function of the region's result. -/
def tailFn (X : FVec Ideal S64x7 .f32) : FVec Ideal S_ .f32 :=
  Host.divf
    (Host.reduceAdd
      (Host.negf
        (addf
          (addf
            (mulf (bc 0x3F4CCCCD#32)
              (trackV (colV X 0 slices_S64x7_S64x1_0_0) (colV X 1 slices_S64x7_S64x1_0_1) (colV X 4 slices_S64x7_S64x1_0_4)))
            (mulf (bc 0x3DCCCCCD#32)
              (trackV (colV X 0 slices_S64x7_S64x1_0_0) (colV X 2 slices_S64x7_S64x1_0_2) (colV X 5 slices_S64x7_S64x1_0_5))))
          (mulf (bc 0x3DCCCCCD#32)
            (trackV (colV X 0 slices_S64x7_S64x1_0_0) (colV X 3 slices_S64x7_S64x1_0_3) (colV X 6 slices_S64x7_S64x1_0_6)))))
      (constant (F := Ideal) S_ .f32 0x00000000#32) reducesTo_S64_S_d0 h_S_)
    (constant (F := Ideal) S_ .f32 0x42800000#32)

/-! ## Read at an index -/

/-- Column `o` at row `b` is the entry `(b, o)`. -/
theorem colV_apply (X : FVec Ideal S64x7 .f32) (o : ℕ) (h : S64x7.Slices ![0, o] S64x1) (b : Fin 64) (k : Fin 7)
    (hk : k.val = o) : colV X o h (ix1 b) = X (ix2 b k) := by
  unfold colV
  rw [shapeCast_apply _ shapeCasts_S64x1_S64 (ix1 b) (ix2 b (0 : Fin 1)) (by
    rw [Shape.rowMajor_val_two, Shape.rowMajor_val_one]
    show b.val * 1 + 0 = b.val
    omega)]
  exact slice2_axis1_apply o X h b 0 k (by rw [hk]; rfl)

/-- A literal copied to every row reads the literal's value. -/
theorem bc_apply (w : BitVec 32) (i : S64.Idx) : bc w i = Ideal.ofBits .f32 w := by
  unfold bc
  rw [broadcastInDim_scalar_apply, constant_apply]

/-- The host's one-operand operations read at an index. -/
theorem hostLog_apply {s : Shape} {φ : FTy} (x : FVec Ideal s φ) (i : s.Idx) : Host.log x i = Ideal.log (x i) := rfl
theorem hostSqrt_apply {s : Shape} {φ : FTy} (x : FVec Ideal s φ) (i : s.Idx) : Host.sqrt x i = Ideal.sqrt (x i) := rfl
theorem hostRsqrt_apply {s : Shape} {φ : FTy} (x : FVec Ideal s φ) (i : s.Idx) : Host.rsqrt x i = Ideal.rsqrt (x i) := rfl
theorem hostAbsf_apply {s : Shape} {φ : FTy} (x : FVec Ideal s φ) (i : s.Idx) : Host.absf x i = max (x i) (-(x i)) := rfl
theorem hostNegf_apply {s : Shape} {φ : FTy} (x : FVec Ideal s φ) (i : s.Idx) : Host.negf x i = -(x i) := rfl

/-- A track's score at a row is the specification's score of the kernel-form ratio of the row's sums. -/
theorem trackV_apply (T D E : FVec Ideal S64 .f32) (i : S64.Idx) :
    trackV T D E i = Cert.Spec.sdr (Cert.Spec.rowK Cert.Spec.epsW (T i) (D i) (E i)) := by
  unfold trackV Cert.Spec.sdr Cert.Spec.rowK Cert.Spec.epsW
  simp only [mulf_apply, addf_apply, subf_apply, maximumf_apply, hostDivf_apply, hostLog_apply, hostSqrt_apply, hostRsqrt_apply,
    hostAbsf_apply, bc_apply, Ideal.ofBits_zero_f32]

/-- The later operations' result is the loss of the sums. -/
theorem tailFn_apply (X : FVec Ideal S64x7 .f32) (i : S_.Idx) : tailFn X i = lossOfSums X := by
  unfold tailFn lossOfSums Cert.Spec.lossE
  rw [hostDivf_apply, hostReduceAdd_apply, Ideal.hostReduceAdd_total reducesTo_S64_S_d0 (fun b => b.elim0), constant_apply,
    constant_apply, Ideal.ofBits_zero_f32, zero_add, ← Equiv.sum_comp (idxEquiv1 (n := 64)).symm]
  congr 1
  refine Finset.sum_congr rfl fun b _ => ?_
  show Host.negf _ (ix1 b) = _
  simp only [hostNegf_apply, addf_apply, mulf_apply, bc_apply, trackV_apply]
  rw [colV_apply X 0 _ b 0 rfl, colV_apply X 1 _ b 1 rfl, colV_apply X 2 _ b 2 rfl, colV_apply X 3 _ b 3 rfl,
    colV_apply X 4 _ b 4 rfl, colV_apply X 5 _ b 5 rfl, colV_apply X 6 _ b 6 rfl]

/-! ## The later operations' run -/

set_option maxHeartbeats 4000000 in
/-- The result buffer after the later operations is their function of the array the region leaves in its output window. -/
theorem afterTail_eq (dats' : (p : Fin 1) → (c : Dev nD) → Dat τ (Elt Ideal) Unit ℕ (UR sig nD τ) ℕ (cfgs p) c) (c : Dev nD) :
    (Pipeline.afterTail₀ cfgs dats' 0 (V0 m) tailOps c main_v83 : FVec Ideal S_ .f32)
      = tailFn ((dats' 0 c).arrAt 5 cfg0.N : FVec Ideal S64x7 .f32) := by
  unfold Pipeline.afterTail₀
  simp only [tailOps, main_part0_ops1, main_part1_ops0, List.flatten_cons, List.flatten_nil, List.append_nil, List.cons_append,
    List.nil_append]
  after_results_simp
  rw [show Pipeline.withArrays (cfgs 0).spec c (V0 m c) (fun w => (dats' 0 c).arrAt w (cfgs 0).N) (Proc.devRef .tc main_v1)
      = (dats' 0 c).arrAt 5 cfg0.N from Pipeline.withArrays_arr spec0 launch0.win.arr_inj c _ _ 5]
  rfl

/-- After the later host operations the result buffer holds the loss of the region's result array, whatever the
    proof data: the operations read only that array and write only their own result buffers. -/
theorem result_eq (dats' : (p : Fin 1) → (c : Dev nD) → Dat τ (Elt Ideal) Unit ℕ (UR sig nD τ) ℕ (cfgs p) c) (c : Dev nD)
    (S : FVec Ideal S64x7 .f32) (hS : ((dats' 0 c).arrAt 5 cfg0.N : FVec Ideal S64x7 .f32) = S) :
    (Pipeline.afterTail₀ cfgs dats' 0 (V0 m) tailOps c main_v83 : FVec Ideal S_ .f32) = fun _ => lossOfSums S := by
  rw [afterTail_eq, hS]
  exact funext fun i => tailFn_apply S i

end Cert.KernelIdeal.KTail

end
-- ==== Proof.RefRows.lean ====
/-
  The reference read row by row: each track's ratio at row `b` is the specification's reference-form ratio of the row's
  masked target and masked estimate, and the program's result is the specification's loss of the three tracks' ratios.
-/
import proofs.«114443_j74741020885129_1_alg».proof.Proof.Gen.ReferenceIdeal.Read
import proofs.«114443_j74741020885129_1_alg».proof.Proof.Spec
import Idealize.ShloMosaic.Lib.ValueIdx
import Idealize.ShloMosaic.Lib.ValueIdxRank1
import Idealize.ShloMosaic.PureOps.Ideal.Laws

noncomputable section

namespace Cert.ReferenceIdeal.RefRows

open Cert.ReferenceIdeal Cert.ReferenceIdeal.Gen Cert.ReferenceIdeal.Read Idealize.ShloMosaic Idealize.ShloMosaic.ValueIdx

/-- The mask's float entry: the unsigned reading of the comparison's bit is the specification's 0/1 mask entry. -/
theorem mask_eq (len : BitVec 32) (j : ℕ) :
    (FloatOps.uitofp (F := Ideal) .f32 (IntOp.cmpi .slt (BitVec.ofNat 32 j) len) : Ideal .f32) = Cert.Spec.mask len j := by
  unfold Cert.Spec.mask IntOp.cmpi
  show (((BitVec.ofBool ((BitVec.ofNat 32 j).slt len)).toNat : ℝ) : EReal) = _
  cases (BitVec.ofNat 32 j).slt len <;> simp

/-- The mask read at row `b`, column `j`. -/
theorem v6_at (x4 : IVec S64 32) (b : Fin 64) (j : Fin 131072) :
    val_main_v6 (F := Ideal) x4 (ix2 b j) = Cert.Spec.mask (x4 (ix1 b)) j.val := by
  rw [val_main_v6_apply, val_main_v5_apply, val_main_v3_apply, val_main_v1_apply, val_main_v0_apply, val_main_v4_apply,
    val_main_v2_apply]
  have e : idx_main_v2 (idx_main_v4 (ix2 b j)) = ix1 b := funext fun a => Fin.ext (by match a with | ⟨0, _⟩ => rfl)
  rw [e]
  exact mask_eq _ _

/-- A sum over the row indices is the sum over the rows. -/
theorem sum_rows (f : S64.Idx → EReal) : ∑ i, f i = ∑ b : Fin 64, f (ix1 b) := by
  rw [← Equiv.sum_comp (idxEquiv1 (n := 64)).symm f]
  rfl

/-- The short track's ratio at row `b`. -/
theorem ratio_s (x0 x3 : FVec Ideal S64x131072 .f32) (x4 : IVec S64 32) (b : Fin 64) :
    val_main_v26 (F := Ideal) x0 x3 x4 (ix1 b)
      = Cert.Spec.rowR Cert.Spec.epsW (fun j : Fin 131072 => x3 (ix2 b j) * Cert.Spec.mask (x4 (ix1 b)) j.val)
          (fun j : Fin 131072 => x0 (ix2 b j) * Cert.Spec.mask (x4 (ix1 b)) j.val) := by
  -- the four row sums run over the columns of row `b`, and the broadcast scale is read at row `b`
  have hD : ∀ k, idx_main_v10 (ix1 b) k = ix2 b k := fun k => funext fun a => Fin.ext (by match a with | ⟨0, _⟩ => rfl | ⟨1, _⟩ => rfl)
  have hT : ∀ k, idx_main_v12 (ix1 b) k = ix2 b k := fun k => funext fun a => Fin.ext (by match a with | ⟨0, _⟩ => rfl | ⟨1, _⟩ => rfl)
  have hN : ∀ k, idx_main_v18 (ix1 b) k = ix2 b k := fun k => funext fun a => Fin.ext (by match a with | ⟨0, _⟩ => rfl | ⟨1, _⟩ => rfl)
  have hR : ∀ k, idx_main_v22 (ix1 b) k = ix2 b k := fun k => funext fun a => Fin.ext (by match a with | ⟨0, _⟩ => rfl | ⟨1, _⟩ => rfl)
  have hA : ∀ k : Fin 131072, idx_main_v14 (idx_main_v15 (ix2 b k)) = ix1 b := fun k => funext fun a => Fin.ext (by match a with | ⟨0, _⟩ => rfl)
  -- the quotient of the two square roots, each of a sum from zero
  rw [val_main_v26_apply, val_main_v19_apply, val_main_v25_apply, val_main_v23_apply, val_main_v24_apply, val_main_cst_3_apply,
    val_main_v18_apply, val_main_v22_apply, val_main_cst_1_apply, val_main_cst_2_apply]
  -- each summand down to the arguments and the mask at row `b`
  simp only [hN, hR, val_main_v21_apply, val_main_v20_apply, val_main_v17_apply, val_main_v16_apply, val_main_v15_apply,
    val_main_v14_apply, hA, val_main_v13_apply, val_main_v10_apply, val_main_v12_apply, val_main_cst_apply, val_main_cst_0_apply,
    hD, hT, val_main_v9_apply, val_main_v11_apply, val_main_v8_apply, val_main_v7_apply, v6_at]
  -- the operations on the extended reals; a sum from zero is the sum
  simp only [Ideal.mulf_def, Ideal.subf_def, Ideal.addf_def, Ideal.hostDivf_def, Ideal.hostUnary_sqrt_def, Ideal.ofBits_def,
    Ideal.ofBits_zero_f32, zero_add]
  unfold Cert.Spec.rowR
  rfl

/-- The medium track's ratio at row `b`. -/
theorem ratio_m (x1 x3 : FVec Ideal S64x131072 .f32) (x4 : IVec S64 32) (b : Fin 64) :
    val_main_v53 (F := Ideal) x1 x3 x4 (ix1 b)
      = Cert.Spec.rowR Cert.Spec.epsW (fun j : Fin 131072 => x3 (ix2 b j) * Cert.Spec.mask (x4 (ix1 b)) j.val)
          (fun j : Fin 131072 => x1 (ix2 b j) * Cert.Spec.mask (x4 (ix1 b)) j.val) := by
  -- the four row sums run over the columns of row `b`, and the broadcast scale is read at row `b`
  have hD : ∀ k, idx_main_v37 (ix1 b) k = ix2 b k := fun k => funext fun a => Fin.ext (by match a with | ⟨0, _⟩ => rfl | ⟨1, _⟩ => rfl)
  have hT : ∀ k, idx_main_v39 (ix1 b) k = ix2 b k := fun k => funext fun a => Fin.ext (by match a with | ⟨0, _⟩ => rfl | ⟨1, _⟩ => rfl)
  have hN : ∀ k, idx_main_v45 (ix1 b) k = ix2 b k := fun k => funext fun a => Fin.ext (by match a with | ⟨0, _⟩ => rfl | ⟨1, _⟩ => rfl)
  have hR : ∀ k, idx_main_v49 (ix1 b) k = ix2 b k := fun k => funext fun a => Fin.ext (by match a with | ⟨0, _⟩ => rfl | ⟨1, _⟩ => rfl)
  have hA : ∀ k : Fin 131072, idx_main_v41 (idx_main_v42 (ix2 b k)) = ix1 b := fun k => funext fun a => Fin.ext (by match a with | ⟨0, _⟩ => rfl)
  -- the quotient of the two square roots, each of a sum from zero
  rw [val_main_v53_apply, val_main_v46_apply, val_main_v52_apply, val_main_v50_apply, val_main_v51_apply, val_main_cst_11_apply,
    val_main_v45_apply, val_main_v49_apply, val_main_cst_9_apply, val_main_cst_10_apply]
  -- each summand down to the arguments and the mask at row `b`
  simp only [hN, hR, val_main_v48_apply, val_main_v47_apply, val_main_v44_apply, val_main_v43_apply, val_main_v42_apply,
    val_main_v41_apply, hA, val_main_v40_apply, val_main_v37_apply, val_main_v39_apply, val_main_cst_7_apply, val_main_cst_8_apply,
    hD, hT, val_main_v36_apply, val_main_v38_apply, val_main_v35_apply, val_main_v34_apply, v6_at]
  -- the operations on the extended reals; a sum from zero is the sum
  simp only [Ideal.mulf_def, Ideal.subf_def, Ideal.addf_def, Ideal.hostDivf_def, Ideal.hostUnary_sqrt_def, Ideal.ofBits_def,
    Ideal.ofBits_zero_f32, zero_add]
  unfold Cert.Spec.rowR
  rfl

/-- The long track's ratio at row `b`. -/
theorem ratio_l (x2 x3 : FVec Ideal S64x131072 .f32) (x4 : IVec S64 32) (b : Fin 64) :
    val_main_v80 (F := Ideal) x2 x3 x4 (ix1 b)
      = Cert.Spec.rowR Cert.Spec.epsW (fun j : Fin 131072 => x3 (ix2 b j) * Cert.Spec.mask (x4 (ix1 b)) j.val)
          (fun j : Fin 131072 => x2 (ix2 b j) * Cert.Spec.mask (x4 (ix1 b)) j.val) := by
  -- the four row sums run over the columns of row `b`, and the broadcast scale is read at row `b`
  have hD : ∀ k, idx_main_v64 (ix1 b) k = ix2 b k := fun k => funext fun a => Fin.ext (by match a with | ⟨0, _⟩ => rfl | ⟨1, _⟩ => rfl)
  have hT : ∀ k, idx_main_v66 (ix1 b) k = ix2 b k := fun k => funext fun a => Fin.ext (by match a with | ⟨0, _⟩ => rfl | ⟨1, _⟩ => rfl)
  have hN : ∀ k, idx_main_v72 (ix1 b) k = ix2 b k := fun k => funext fun a => Fin.ext (by match a with | ⟨0, _⟩ => rfl | ⟨1, _⟩ => rfl)
  have hR : ∀ k, idx_main_v76 (ix1 b) k = ix2 b k := fun k => funext fun a => Fin.ext (by match a with | ⟨0, _⟩ => rfl | ⟨1, _⟩ => rfl)
  have hA : ∀ k : Fin 131072, idx_main_v68 (idx_main_v69 (ix2 b k)) = ix1 b := fun k => funext fun a => Fin.ext (by match a with | ⟨0, _⟩ => rfl)
  -- the quotient of the two square roots, each of a sum from zero
  rw [val_main_v80_apply, val_main_v73_apply, val_main_v79_apply, val_main_v77_apply, val_main_v78_apply, val_main_cst_19_apply,
    val_main_v72_apply, val_main_v76_apply, val_main_cst_17_apply, val_main_cst_18_apply]
  -- each summand down to the arguments and the mask at row `b`
  simp only [hN, hR, val_main_v75_apply, val_main_v74_apply, val_main_v71_apply, val_main_v70_apply, val_main_v69_apply,
    val_main_v68_apply, hA, val_main_v67_apply, val_main_v64_apply, val_main_v66_apply, val_main_cst_15_apply, val_main_cst_16_apply,
    hD, hT, val_main_v63_apply, val_main_v65_apply, val_main_v62_apply, val_main_v61_apply, v6_at]
  -- the operations on the extended reals; a sum from zero is the sum
  simp only [Ideal.mulf_def, Ideal.subf_def, Ideal.addf_def, Ideal.hostDivf_def, Ideal.hostUnary_sqrt_def, Ideal.ofBits_def,
    Ideal.ofBits_zero_f32, zero_add]
  unfold Cert.Spec.rowR
  rfl

/-- The result is the loss of the three tracks' ratios. -/
theorem loss (x0 x1 x2 x3 : FVec Ideal S64x131072 .f32) (x4 : IVec S64 32) (i : S_.Idx) :
    val_main_v98 (F := Ideal) x0 x1 x2 x3 x4 i
      = Cert.Spec.lossE (fun b => val_main_v26 (F := Ideal) x0 x3 x4 (ix1 b)) (fun b => val_main_v53 (F := Ideal) x1 x3 x4 (ix1 b))
          (fun b => val_main_v80 (F := Ideal) x2 x3 x4 (ix1 b)) := by
  -- the mean: the sum over the 64 rows, from zero, divided by 64
  rw [val_main_v98_apply, val_main_v97_apply, val_main_cst_27_apply, val_main_cst_26_apply, sum_rows]
  -- each row's negated weighted sum of the three scores, down to the three ratios
  simp only [val_main_v96_apply, val_main_v95_apply, val_main_v92_apply, val_main_v94_apply, val_main_v89_apply, val_main_v91_apply,
    val_main_v88_apply, val_main_v90_apply, val_main_v93_apply, val_main_cst_23_apply, val_main_cst_24_apply, val_main_cst_25_apply,
    val_main_v33_apply, val_main_v32_apply, val_main_cst_6_apply, val_main_v31_apply, val_main_v30_apply, val_main_cst_5_apply,
    val_main_v29_apply, val_main_v28_apply, val_main_v27_apply, val_main_cst_4_apply,
    val_main_v60_apply, val_main_v59_apply, val_main_cst_14_apply, val_main_v58_apply, val_main_v57_apply, val_main_cst_13_apply,
    val_main_v56_apply, val_main_v55_apply, val_main_v54_apply, val_main_cst_12_apply,
    val_main_v87_apply, val_main_v86_apply, val_main_cst_22_apply, val_main_v85_apply, val_main_v84_apply, val_main_cst_21_apply,
    val_main_v83_apply, val_main_v82_apply, val_main_v81_apply, val_main_cst_20_apply]
  -- the operations on the extended reals; a sum from zero is the sum
  simp only [Ideal.mulf_def, Ideal.addf_def, Ideal.hostDivf_def, Ideal.hostUnary_log_def, Ideal.hostNegf_def, Ideal.negf_def,
    Ideal.ofBits_def, Ideal.ofBits_zero_f32, zero_add]
  unfold Cert.Spec.lossE Cert.Spec.sdr
  rfl

end Cert.ReferenceIdeal.RefRows

end
-- ==== Proof.SpecRow.lean ====
/-
  The row law: on rows of finite entries the kernel's ratio and the reference's ratio are one extended real.
-/
import proofs.«114443_j74741020885129_1_alg».proof.Proof.Spec

noncomputable section

namespace Cert.Spec

open Idealize.ShloMosaic

/-- The coercion of a finite sum of reals is the sum of the coercions. -/
theorem coe_sum {ι : Type} (s : Finset ι) (f : ι → ℝ) :
    ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- A sum of products of coerced reals is the coercion of the real sum of products. -/
theorem sum_mul_coe {ι : Type} [Fintype ι] (f g : ι → ℝ) :
    ∑ j, (f j : EReal) * (g j : EReal) = ((∑ j, f j * g j : ℝ) : EReal) := by
  rw [← coe_sum]; exact Finset.sum_congr rfl (fun j _ => (EReal.coe_mul _ _).symm)

/-- The squares of the scaled targets sum to the squared scale times the targets' sum of squares. -/
theorem real_num {ι : Type} [Fintype ι] (a : ℝ) (t : ι → ℝ) :
    ∑ j, (a * t j) * (a * t j) = a * a * ∑ j, t j * t j := by
  rw [Finset.mul_sum]; exact Finset.sum_congr rfl (fun j _ => by ring)

/-- The residual of the projection: `∑ (D/T · t - e)² = E - D²/T` for `T ≠ 0`. -/
theorem real_den {ι : Type} [Fintype ι] (t e : ι → ℝ) (T D E : ℝ)
    (hT : ∑ k, t k * t k = T) (hD : ∑ k, t k * e k = D) (hE : ∑ k, e k * e k = E) (hT0 : T ≠ 0) :
    ∑ j, (D / T * t j - e j) * (D / T * t j - e j) = E - D * D / T := by
  have h : ∀ j, (D / T * t j - e j) * (D / T * t j - e j)
      = (D / T) * (D / T) * (t j * t j) - 2 * (D / T) * (t j * e j) + e j * e j := fun j => by ring
  simp only [h]
  rw [Finset.sum_add_distrib, Finset.sum_sub_distrib, ← Finset.mul_sum, ← Finset.mul_sum, hT, hD, hE]
  field_simp
  ring

/-- The root of the scaled targets' sum of squares: `√((D/T)² T) = |D| / √T` for `T > 0`. -/
theorem real_sqrt_num (T D : ℝ) (hT : 0 < T) :
    Real.sqrt (D / T * (D / T) * T) = |D| * (Real.sqrt T)⁻¹ := by
  have h : D / T * (D / T) * T = D ^ 2 / T := by field_simp
  rw [h, Real.sqrt_div (sq_nonneg D), Real.sqrt_sq_eq_abs, div_eq_mul_inv]

/-- The root of anything, plus a positive real, is not zero. -/
theorem sqrt_add_ne_zero (x : EReal) (ε : ℝ) (hε : 0 < ε) : Ideal.sqrt x + (ε : EReal) ≠ 0 := by
  induction x using EReal.rec with
  | bot => simp
  | top => simp
  | coe r =>
    rw [Ideal.sqrt_coe]
    split
    · simp
    · rw [← EReal.coe_add]
      have : 0 < Real.sqrt r + ε := add_pos_of_nonneg_of_pos (Real.sqrt_nonneg r) hε
      exact_mod_cast this.ne'

/-- Zero over a divisor that is not zero is zero. -/
theorem div_zero_left {y : EReal} (hy : y ≠ 0) : Ideal.div 0 y = 0 := by
  unfold Ideal.div; rw [if_neg hy, zero_mul]

/-- The root of zero is zero. -/
theorem sqrt_zero : Ideal.sqrt 0 = 0 := by
  rw [← EReal.coe_zero, Ideal.sqrt_coe]; simp

/-- The kernel's ratio at `T = 0`, `D = 0`: the numerator is zero and the denominator is not. -/
theorem rowK_zero (ε : ℝ) (hε : 0 < ε) (E : EReal) : rowK (ε : EReal) 0 0 E = 0 := by
  unfold rowK
  have h : max (0 : EReal) (-(0 : EReal)) * Ideal.rsqrt 0 = 0 := by simp
  rw [h]; exact div_zero_left (sqrt_add_ne_zero _ ε hε)

/-- The reference's ratio on a zero target: the scaled target is zero whatever the scale, so the numerator is zero. -/
theorem rowR_zero {ι : Type} [Fintype ι] (ε : ℝ) (hε : 0 < ε) (e : ι → EReal) :
    rowR (ε : EReal) (fun _ => (0 : EReal)) e = 0 := by
  unfold rowR
  simp only [mul_zero, Finset.sum_const_zero, sqrt_zero]
  exact div_zero_left (sqrt_add_ne_zero _ ε hε)

/-- The kernel's ratio for `T > 0`, as a quotient of reals. -/
theorem rowK_pos (ε T D E : ℝ) (hT : 0 < T) (hR : 0 ≤ E - D * D / T) :
    rowK (ε : EReal) (T : EReal) (D : EReal) (E : EReal)
      = Ideal.div ((|D| * (Real.sqrt T)⁻¹ : ℝ) : EReal) (Ideal.sqrt ((E - D * D / T : ℝ) : EReal) + (ε : EReal)) := by
  unfold rowK
  have h1 : max (D : EReal) (-(D : EReal)) = ((|D| : ℝ) : EReal) := by
    rw [← EReal.coe_neg, ← EReal.coe_strictMono.monotone.map_max, abs_eq_max_neg]
  have h2 : Ideal.rsqrt (T : EReal) = (((Real.sqrt T)⁻¹ : ℝ) : EReal) := by
    rw [Ideal.rsqrt_coe, if_neg (not_lt.2 hT.le), if_neg hT.ne']
  have h3 : (E : EReal) - Ideal.div ((D : EReal) * (D : EReal)) (T : EReal) = ((E - D * D / T : ℝ) : EReal) := by
    rw [Ideal.div_coe hT.ne', ← EReal.coe_mul, ← EReal.coe_mul, ← EReal.coe_sub, one_div, div_eq_mul_inv]
  have h4 : max ((E - D * D / T : ℝ) : EReal) 0 = ((E - D * D / T : ℝ) : EReal) :=
    max_eq_left (by exact_mod_cast hR)
  rw [h1, h2, h3, h4, ← EReal.coe_mul]

/-- The reference's ratio for `T > 0`, as the same quotient of reals. -/
theorem rowR_pos {ι : Type} [Fintype ι] (ε : ℝ) (tr er : ι → ℝ) (T D E : ℝ)
    (hT : ∑ k, tr k * tr k = T) (hD : ∑ k, tr k * er k = D) (hE : ∑ k, er k * er k = E) (hT0 : 0 < T) :
    rowR (ε : EReal) (fun j => (tr j : EReal)) (fun j => (er j : EReal))
      = Ideal.div ((|D| * (Real.sqrt T)⁻¹ : ℝ) : EReal) (Ideal.sqrt ((E - D * D / T : ℝ) : EReal) + (ε : EReal)) := by
  unfold rowR
  have hT' : ∑ k, (tr k : EReal) * (tr k : EReal) = (T : EReal) := by rw [sum_mul_coe, hT]
  have hD' : ∑ k, (tr k : EReal) * (er k : EReal) = (D : EReal) := by rw [sum_mul_coe, hD]
  have ha : Ideal.div (D : EReal) (T : EReal) = ((D / T : ℝ) : EReal) := by
    rw [Ideal.div_coe hT0.ne', ← EReal.coe_mul, one_div, div_eq_mul_inv]
  simp only [hT', hD', ha]
  simp only [← EReal.coe_mul, ← EReal.coe_sub]
  have hnn : 0 ≤ D / T * (D / T) * T := by
    have : D / T * (D / T) * T = ∑ j, (D / T * tr j) * (D / T * tr j) := by rw [real_num, hT]
    rw [this]; exact Finset.sum_nonneg (fun j _ => mul_self_nonneg _)
  rw [coe_sum, coe_sum, real_num, hT, real_den tr er T D E hT hD hE hT0.ne',
    Ideal.sqrt_coe (D / T * (D / T) * T), if_neg (not_lt.2 hnn), real_sqrt_num T D hT0]

/-- The residual `E - D²/T` is a sum of squares, hence not negative. -/
theorem resid_nonneg {ι : Type} [Fintype ι] (t e : ι → ℝ) (T D E : ℝ)
    (hT : ∑ k, t k * t k = T) (hD : ∑ k, t k * e k = D) (hE : ∑ k, e k * e k = E) (hT0 : T ≠ 0) :
    0 ≤ E - D * D / T := by
  rw [← real_den t e T D E hT hD hE hT0]; exact Finset.sum_nonneg (fun j _ => mul_self_nonneg _)

/-- The two ratios agree on rows of finite entries, for a positive real `ε`. -/
theorem row_eq {ι : Type} [Fintype ι] (ε : ℝ) (hε : 0 < ε) (t e : ι → EReal)
    (ht : ∀ j, ∃ r : ℝ, t j = (r : EReal)) (he : ∀ j, ∃ r : ℝ, e j = (r : EReal)) :
    rowK (ε : EReal) (∑ j, t j * t j) (∑ j, t j * e j) (∑ j, e j * e j) = rowR (ε : EReal) t e := by
  choose tr htr using ht
  choose er her using he
  obtain rfl : t = fun j => (tr j : EReal) := funext htr
  obtain rfl : e = fun j => (er j : EReal) := funext her
  simp only [sum_mul_coe]
  by_cases hT : ∑ k, tr k * tr k = 0
  · have h0 : ∀ j, tr j = 0 := fun j =>
      mul_self_eq_zero.1 ((Finset.sum_eq_zero_iff_of_nonneg (fun j _ => mul_self_nonneg (tr j))).1 hT j (Finset.mem_univ j))
    obtain rfl : tr = fun _ => 0 := funext h0
    simp only [zero_mul, Finset.sum_const_zero, EReal.coe_zero]
    rw [rowK_zero ε hε, rowR_zero ε hε]
  · have hT0 : 0 < ∑ k, tr k * tr k :=
      lt_of_le_of_ne (Finset.sum_nonneg (fun j _ => mul_self_nonneg (tr j))) (Ne.symm hT)
    rw [rowK_pos ε _ _ _ hT0 (resid_nonneg tr er _ _ _ rfl rfl rfl hT), rowR_pos ε tr er _ _ _ rfl rfl rfl hT0]

end Cert.Spec

end
-- ==== Proof.Finite.lean ====
/-
  From the precondition to finiteness: if the printed predicate "every float input is finite" evaluates to true, every
  entry of the four float arrays is a real number.
-/
import proofs.«114443_j74741020885129_1_alg».proof.Pre_finite_inputs
import proofs.«114443_j74741020885129_1_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

/-- The scalar shape has one index. -/
instance subsingleton_scalar_idx : Subsingleton S_.Idx := ⟨fun _ _ => funext fun d => d.elim0⟩

/-- The pattern 0x7F800000 (exponent all ones, fraction zero, sign clear) denotes +∞. -/
theorem ofBits_inf : Ideal.ofBits .f32 0x7F800000#32 = (⊤ : EReal) := by
  simp [Ideal.ofBits, Ideal.ieee]

/-- One value: |x| < +∞ (|x| read as max x (−x)) makes x a real. Of the three kinds of extended real, −∞ and +∞ both
    have |x| = +∞, which is not below +∞. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One array: if the conjunction over all entries of "|x i| < +∞" is true, every entry is a real. -/
theorem finite_of_all [Cert.Pre_finite_inputs.Facts] (x : FVec Ideal S64x131072 .f32) (j : S_.Idx)
    (h : Host.reduce IntOp.andi
        (cmpf .olt (Host.absf x)
          (broadcastInDim S64x131072 ![] Facts.bcast_S_S64x131072 (constant S_ .f32 0x7F800000#32)))
        (constantI S_ 1 1#1) Facts.reducesTo_S64x131072_S_d0_1 Facts.h_S_ j = 1#1) :
    ∀ i, ∃ r : ℝ, x i = (r : EReal) := by
  intro i
  have hi := Host.reduce_andi_all _ _ _ _ j h i
  apply real_of_abs_lt_top
  rw [← ofBits_inf]
  exact hi

/-- The predicate all true makes every entry of the four float arrays a real. -/
theorem finite_of_pre [Cert.Pre_finite_inputs.Facts] (x0 x1 x2 x3 : FVec Ideal S64x131072 .f32) (x4 : IVec S64 32)
    (h : Cert.Pre_finite_inputs.fn (F := Ideal) x0 x1 x2 x3 x4 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨hx0, hx1⟩ := IntOp.andi_eq_one.1 h01
  exact ⟨finite_of_all x0 _ hx0, finite_of_all x1 _ hx1, finite_of_all x2 _ h2, finite_of_all x3 _ h3⟩

end Cert.Finite

end
-- ==== Proof.Bridge.lean ====
/-
  The two programs compute one function. The kernel program's run ends with its result buffer at the loss of the rows'
  seven sums (the sums by the accumulation over the grid, the loss by its later host operations); the reference's result
  is the loss of its three tracks' reference-form ratios; on finite inputs each reference-form ratio is the kernel-form
  ratio of the row's sums (the row law), so the two results are one extended real.
-/
import proofs.«114443_j74741020885129_1_alg».proof.Proof.KSums
import proofs.«114443_j74741020885129_1_alg».proof.Proof.KTail
import proofs.«114443_j74741020885129_1_alg».proof.Proof.RefRows
import proofs.«114443_j74741020885129_1_alg».proof.Proof.SpecRow
import proofs.«114443_j74741020885129_1_alg».proof.Proof.SpecAux
import proofs.«114443_j74741020885129_1_alg».proof.Proof.Finite

set_option maxRecDepth 65536

noncomputable section

namespace Cert.Bridge

open Idealize.ShloMosaic Idealize.ShloMosaic.TcCoe Idealize.ShloMosaic.ValueIdx
open Idealize.SL Idealize.SL.Sem

/-- The common result: the loss of the rows' sums, as a function of the five argument arrays. -/
def G (a0 a1 a2 a3 : (⟨2, ![64, 131072]⟩ : Shape).Idx → EReal) (a4 : (⟨1, ![64]⟩ : Shape).Idx → BitVec 32) : EReal :=
  Cert.KernelIdeal.KTail.lossOfSums (Cert.Spec.sumsG a0 a1 a2 a3 a4)

/-- A masked entry of a finite array is a real. -/
theorem masked_real (x : EReal) (hx : ∃ r : ℝ, x = (r : EReal)) (len : BitVec 32) (j : ℕ) :
    ∃ r : ℝ, x * Cert.Spec.mask len j = (r : EReal) := by
  obtain ⟨r, rfl⟩ := hx
  obtain ⟨s, hs⟩ := Cert.Spec.mask_real len j
  exact ⟨r * s, by rw [hs, EReal.coe_mul]⟩

/-- One track: the kernel-form ratio of row `b`'s sums is the reference-form ratio of the row's masked target and estimate. -/
theorem track_eq (a3 e : (⟨2, ![64, 131072]⟩ : Shape).Idx → EReal) (a4 : (⟨1, ![64]⟩ : Shape).Idx → BitVec 32)
    (h3 : ∀ i, ∃ r : ℝ, a3 i = (r : EReal)) (he : ∀ i, ∃ r : ℝ, e i = (r : EReal)) (b : Fin 64) :
    Cert.Spec.rowK Cert.Spec.epsW
        (∑ j : Fin 131072, (a3 (ix2 b j) * Cert.Spec.mask (a4 (ix1 b)) j.val) * (a3 (ix2 b j) * Cert.Spec.mask (a4 (ix1 b)) j.val))
        (∑ j : Fin 131072, (a3 (ix2 b j) * Cert.Spec.mask (a4 (ix1 b)) j.val) * (e (ix2 b j) * Cert.Spec.mask (a4 (ix1 b)) j.val))
        (∑ j : Fin 131072, (e (ix2 b j) * Cert.Spec.mask (a4 (ix1 b)) j.val) * (e (ix2 b j) * Cert.Spec.mask (a4 (ix1 b)) j.val))
      = Cert.Spec.rowR Cert.Spec.epsW (fun j : Fin 131072 => a3 (ix2 b j) * Cert.Spec.mask (a4 (ix1 b)) j.val)
          (fun j : Fin 131072 => e (ix2 b j) * Cert.Spec.mask (a4 (ix1 b)) j.val) := by
  obtain ⟨ε, hε, hεW⟩ := Cert.Spec.eps_real
  rw [hεW]
  exact Cert.Spec.row_eq ε hε _ _ (fun j => masked_real _ (h3 _) _ _) (fun j => masked_real _ (he _) _ _)

/-- The reference's result, on finite inputs, is the common result. -/
theorem ref_value (x0 x1 x2 x3 : FVec Ideal Cert.ReferenceIdeal.S64x131072 .f32) (x4 : IVec Cert.ReferenceIdeal.S64 32)
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    Cert.ReferenceIdeal.Read.val_main_v98 (F := Ideal) x0 x1 x2 x3 x4 = fun _ => G x0 x1 x2 x3 x4 := by
  funext i
  rw [Cert.ReferenceIdeal.RefRows.loss]
  have es : (fun b : Fin 64 => Cert.ReferenceIdeal.Read.val_main_v26 (F := Ideal) x0 x3 x4 (ix1 b))
      = fun b : Fin 64 => Cert.Spec.rowK Cert.Spec.epsW (Cert.Spec.sumsG x0 x1 x2 x3 x4 (ix2 b 0))
          (Cert.Spec.sumsG x0 x1 x2 x3 x4 (ix2 b 1)) (Cert.Spec.sumsG x0 x1 x2 x3 x4 (ix2 b 4)) :=
    funext fun b => (Cert.ReferenceIdeal.RefRows.ratio_s x0 x3 x4 b).trans (track_eq x3 x0 x4 h3 h0 b).symm
  have em : (fun b : Fin 64 => Cert.ReferenceIdeal.Read.val_main_v53 (F := Ideal) x1 x3 x4 (ix1 b))
      = fun b : Fin 64 => Cert.Spec.rowK Cert.Spec.epsW (Cert.Spec.sumsG x0 x1 x2 x3 x4 (ix2 b 0))
          (Cert.Spec.sumsG x0 x1 x2 x3 x4 (ix2 b 2)) (Cert.Spec.sumsG x0 x1 x2 x3 x4 (ix2 b 5)) :=
    funext fun b => (Cert.ReferenceIdeal.RefRows.ratio_m x1 x3 x4 b).trans (track_eq x3 x1 x4 h3 h1 b).symm
  have el : (fun b : Fin 64 => Cert.ReferenceIdeal.Read.val_main_v80 (F := Ideal) x2 x3 x4 (ix1 b))
      = fun b : Fin 64 => Cert.Spec.rowK Cert.Spec.epsW (Cert.Spec.sumsG x0 x1 x2 x3 x4 (ix2 b 0))
          (Cert.Spec.sumsG x0 x1 x2 x3 x4 (ix2 b 3)) (Cert.Spec.sumsG x0 x1 x2 x3 x4 (ix2 b 6)) :=
    funext fun b => (Cert.ReferenceIdeal.RefRows.ratio_l x2 x3 x4 b).trans (track_eq x3 x2 x4 h3 h2 b).symm
  rw [es, em, el]
  rfl

section Kernel

open Cert.KernelIdeal Cert.KernelIdeal.Gen Cert.KernelIdeal.FrameH

variable (m : (ℓ : Loc nD τ sig) → Buf (Elt Ideal) ℓ) (ρ : Dev nD → PrngReg)

/-- The kernel program runs, ends with its result buffer at the common result of its argument arrays, and leaves the
    argument arrays unchanged. -/
theorem kernel_run : θ_run defs (onTc (τ := τ) (main (F := Ideal))) ⟨m, fun _ => 0, ρ⟩ (fun r => ∀ c : Dev nD,
      r.2.mem ((c.tc : Thread nD τ).loc main_v83)
          = (fun _ => G (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v83 (Pipeline.mem_restRefs_of main_v83 (by decide) (by decide))).trans
        (Cert.KernelIdeal.KTail.result_eq m (dats m) c _ (Cert.KernelIdeal.KSums.sums_eq m c)),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c)⟩)
    (run_main (F := Ideal) m ρ)

end Kernel

end Cert.Bridge

end
-- ==== Proof.lean ====
/-
  Three masked scale-invariant signal-to-distortion scores against one target, combined into a mean loss: the kernel
  program and the reference are one function of the five argument arrays over the extended reals.

  Per row the kernel streams the target and the three estimates once, multiplies each by the row's 0/1 length mask, and
  keeps seven sums — `T = ∑ t²`, `D = ∑ t·e` and `E = ∑ e²` for each estimate `e` — accumulated over four column blocks in
  the result block's buffer, which is reset at each row block's first point and written back after its last. Its host
  operations then form each track's ratio `|D| · T^(-1/2) / (√(max (E - D²/T) 0) + ε)`. The reference projects: with
  `a = D / T` it forms `√(∑ (a t)²) / (√(∑ (a t - e)²) + ε)`. On finite inputs the two ratios agree: for `T > 0` because
  `∑ (a t)² = D²/T` and `∑ (a t - e)² = E - D²/T ≥ 0`; for `T = 0` because then `t = 0`, both numerators vanish and both
  denominators are positive. Both programs then apply the same `20 · log₁₀(q + ε)`, the weights 0.8, 0.1, 0.1, the negation
  and the mean over the 64 rows.

  The frames: each kernel program runs its region over the 32 grid points and its later host operations, which write
  only their own result buffers, so the five arguments end as launched; the reference is a straight line of host operations.
  The idealization rewrote no operation.
-/
import proofs.«114443_j74741020885129_1_alg».proof.Defs
import proofs.«114443_j74741020885129_1_alg».proof.Proof.Gen.Kernel
import proofs.«114443_j74741020885129_1_alg».proof.Proof.Gen.KernelIdeal
import proofs.«114443_j74741020885129_1_alg».proof.Proof.Gen.ReferenceIdeal
import proofs.«114443_j74741020885129_1_alg».proof.Proof.Gen.Pre_finite_inputs
import proofs.«114443_j74741020885129_1_alg».proof.Proof.Gen.ReferenceIdeal.Run
import proofs.«114443_j74741020885129_1_alg».proof.Proof.KB.Frame
import proofs.«114443_j74741020885129_1_alg».proof.Proof.KI.Frame
import proofs.«114443_j74741020885129_1_alg».proof.Proof.Bridge
import Idealize.ShloMosaic.Adequacy
import Idealize.ShloMosaic.Init

noncomputable section

namespace Cert.Proof

open Idealize.ShloMosaic Idealize.SL.Sem

/-- From memories agreeing on the arguments, of which the kernel's are finite, both idealized programs run and end
    with the common result of the kernel's argument arrays. -/
theorem algebraic : Cert.algebraic_KernelIdeal_ReferenceIdeal := by
  intro m ρ m' ρ' hpre hagree
  refine ⟨_, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v98_eq, (hagree c).1, (hagree c).2.1, (hagree c).2.2.1, (hagree c).2.2.2.1,
    (hagree c).2.2.2.2]
  obtain ⟨h0, h1, h2, h3⟩ := Cert.Finite.finite_of_pre _ _ _ _ _ (hpre c)
  exact Cert.Bridge.ref_value _ _ _ _ _ h0 h1 h2 h3

theorem claim : Cert.Claim := ⟨Cert.Kernel.Gen.facts, Cert.KernelIdeal.Gen.facts, Cert.ReferenceIdeal.Gen.facts, Cert.Pre_finite_inputs.Gen.facts,
  fun m ρ _ => Cert.Kernel.FrameH.frame m ρ,
  fun m ρ _ => Cert.KernelIdeal.FrameH.frame m ρ,
  fun m ρ _ => (θ_run Cert.ReferenceIdeal.defs _ _).mono (fun _ h c => (h c).2) (Cert.ReferenceIdeal.Value.run (F := Ideal) m ρ),
  trivial,
  algebraic⟩

end Cert.Proof

end
